-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S8192x8192 : Shape := ⟨2, ![8192, 8192]⟩
abbrev S8192 : Shape := ⟨1, ![8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S256x8192 .f32) (main_arg1 : FVec F S8192x8192 .f32) (main_arg2 : FVec F S8192 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S256x256 : Shape := ⟨2, ![256, 256]⟩
abbrev S256x1 : Shape := ⟨2, ![256, 1]⟩
abbrev S256 : Shape := ⟨1, ![256]⟩
abbrev S1x8192 : Shape := ⟨2, ![1, 8192]⟩
abbrev S_ : Shape := ⟨0, ![]⟩
abbrev S1 : Shape := ⟨1, ![1]⟩
abbrev S64x8192 : Shape := ⟨2, ![64, 8192]⟩

abbrev nBuf : Space → Nat
  | .hbm => 51
  | .vmem => 19
  | .smem => 0
  | _ => 0

abbrev bufTy : (tb : Table) → Fin (tcTables nBuf tb) → BufTy
  | .hbm, ⟨0, _⟩ => ⟨S256x8192, .f32⟩
  | .hbm, ⟨1, _⟩ => ⟨S8192x8192, .f32⟩
  | .hbm, ⟨2, _⟩ => ⟨S8192, .f32⟩
  | .hbm, ⟨3, _⟩ => ⟨S8192x1, .f32⟩
  | .hbm, ⟨4, _⟩ => ⟨S8192x1, .f32⟩
  | .hbm, ⟨5, _⟩ => ⟨S8192x1, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S1, .f32⟩
  | .hbm, ⟨15, _⟩ => ⟨S_, .f32⟩
  | .hbm, ⟨16, _⟩ => ⟨S_, .i32⟩
  | .hbm, ⟨17, _⟩ => ⟨S1, .i32⟩
  | .hbm, ⟨18, _⟩ => ⟨S8192, .f32⟩
  | .hbm, ⟨19, _⟩ => ⟨S1, .f32⟩
  | .hbm, ⟨20, _⟩ => ⟨S_, .f32⟩
  | .hbm, ⟨21, _⟩ => ⟨S_, .i32⟩
  | .hbm, ⟨22, _⟩ => ⟨S1, .i32⟩
  | .hbm, ⟨23, _⟩ => ⟨S8192, .f32⟩
  | .hbm, ⟨24, _⟩ => ⟨S1, .f32⟩
  | .hbm, ⟨25, _⟩ => ⟨S_, .f32⟩
  | .hbm, ⟨26, _⟩ => ⟨S_, .i32⟩
  | .hbm, ⟨27, _⟩ => ⟨S1, .i32⟩
  | .hbm, ⟨28, _⟩ => ⟨S8192, .f32⟩
  | .hbm, ⟨29, _⟩ => ⟨S1, .f32⟩
  | .hbm, ⟨30, _⟩ => ⟨S_, .f32⟩
  | .hbm, ⟨31, _⟩ => ⟨S_, .i32⟩
  | .hbm, ⟨32, _⟩ => ⟨S1, .i32⟩
  | .hbm, ⟨33, _⟩ => ⟨S8192, .f32⟩
  | .hbm, ⟨34, _⟩ => ⟨S1, .f32⟩
  | .hbm, ⟨35, _⟩ => ⟨S_, .f32⟩
  | .hbm, ⟨36, _⟩ => ⟨S_, .i32⟩
  | .hbm, ⟨37, _⟩ => ⟨S1, .i32⟩
  | .hbm, ⟨38, _⟩ => ⟨S8192, .f32⟩
  | .hbm, ⟨39, _⟩ => ⟨S1, .f32⟩
  | .hbm, ⟨40, _⟩ => ⟨S_, .f32⟩
  | .hbm, ⟨41, _⟩ => ⟨S_, .i32⟩
  | .hbm, ⟨42, _⟩ => ⟨S1, .i32⟩
  | .hbm, ⟨43, _⟩ => ⟨S8192, .f32⟩
  | .hbm, ⟨44, _⟩ => ⟨S1x8192, .f32⟩
  | .hbm, ⟨45, _⟩ => ⟨S1x8192, .f32⟩
  | .hbm, ⟨46, _⟩ => ⟨S1x8192, .f32⟩
  | .hbm, ⟨47, _⟩ => ⟨S1x8192, .f32⟩
  | .hbm, ⟨48, _⟩ => ⟨S1x8192, .f32⟩
  | .hbm, ⟨49, _⟩ => ⟨S1x8192, .f32⟩
  | .hbm, ⟨50, _⟩ => ⟨S256x8192, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S64x8192, .f32⟩
  | .local _ .vmem, ⟨13, _⟩ => ⟨S64x8192, .f32⟩
  | .local _ .vmem, ⟨14, _⟩ => ⟨S1x8192, .f32⟩
  | .local _ .vmem, ⟨15, _⟩ => ⟨S1x8192, .f32⟩
  | .local _ .vmem, ⟨16, _⟩ => ⟨S1x8192, .f32⟩
  | .local _ .vmem, ⟨17, _⟩ => ⟨S64x8192, .f32⟩
  | .local _ .vmem, ⟨18, _⟩ => ⟨S64x8192, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c32_i32 : BitVec 32 := 32#32
  let c0_i32 : BitVec 32 := 0#32
  let v1 : BitVec 1 := Scalar.cmpi .eq c32_i32 c0_i32
  let c1_i32_0 : BitVec 32 := 1#32
  let v2 : BitVec 32 := Scalar.select v1 c1_i32_0 c32_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  ![arg0.toNat, v10.toNat]

def cc0_transform_1 (i : grid0.Coords) : Fin 2 → Nat :=
  let arg0 : BitVec 32 := BitVec.ofNat 32 (i 0).val
  let c0_i32 : BitVec 32 := 0#32
  ![arg0.toNat, arg0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let c0_i32 : BitVec 32 := 0#32
  let v1 : BitVec 1 := Scalar.cmpi .eq c32_i32 c0_i32
  let c1_i32_0 : BitVec 32 := 1#32
  let v2 : BitVec 32 := Scalar.select v1 c1_i32_0 c32_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  ![arg0.toNat, v10.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  iota_S256x256_d0_w32 : S256x256.Iotas .tc 32 [0]
  iota_S256x256_d1_w32 : S256x256.Iotas .tc 32 [1]
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S8192x1_S1x8192 : S8192x1.ShapeCasts S1x8192
  bcast_S_S8192 : S_.BroadcastsInDim S8192 (![] : Fin 0 → Fin S8192.rank)
  slices_S8192_S1_0 : S8192.Slices ![0] S1
  shapeCasts_S1_S_ : S1.ShapeCasts S_
  bcast_S_S1 : S_.BroadcastsInDim S1 (![] : Fin 0 → Fin S1.rank)
  slices_S8192_S1_8191 : S8192.Slices ![8191] S1
  shapeCasts_S8192_S1x8192 : S8192.ShapeCasts S1x8192
  inb_S64x8192_S64x8192_0_0 : ∀ a, (![0, 0] : Fin 2 → Nat) a + S64x8192.size a ≤ S64x8192.size a
  h_S64x8192 : 0 < S64x8192.numel
  rotates_S64x8192_d1 : S64x8192.Rotates 1 none
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S64x8192 : S1x8192.Broadcasts S64x8192
  scatter_S8192_S1_S__n_0_0_0_wf : ScatterDims.WF S8192 S1 S_ [] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x8192.size a
  hwx0_0 : ∀ i : grid0.Coords, EltTy.bits .f32 = 32 ∨ (Rect.block (s := S8192x8192) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S8192x8192.size a
  hwx0_1 : ∀ i : grid0.Coords, EltTy.bits .f32 = 32 ∨ (Rect.block (s := S8192x8192) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x8192.size a
  hwx0_2 : ∀ i : grid0.Coords, EltTy.bits .f32 = 32 ∨ (Rect.block (s := S8192x8192) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .f32 = 32 ∨ (Rect.block (s := S8192x1) S256x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S256x8192.size a
  hwx1_0 : ∀ i : grid1.Coords, EltTy.bits .f32 = 32 ∨ (Rect.block (s := S256x8192) S64x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x8192.size a ≤ S256x8192.size a
  hwx1_4 : ∀ i : grid1.Coords, EltTy.bits .f32 = 32 ∨ (Rect.block (s := S256x8192) S64x8192.size (cc1_transform_4 i) (hinb1_4 i)).WholeWords (EltTy.packing .f32)

variable [Facts₀]

def scatter_S8192_S1_S__n_0_0_0 : ScatterDims S8192 S1 S_ where
  updateWindowDims := []
  insertedWindowDims := [0]
  scatterDimsToOperandDims := [0]
  indexVectorDim := 0
  wf := scatter_S8192_S1_S__n_0_0_0_wf

abbrev win0_0 : Pipeline.Window sig grid0 :=
  Pipeline.Window.ofSpec (Memref.whole main_arg1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S64x8192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S256x8192 : Shape := ⟨2, ![256, 8192]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1 : Shape := ⟨1, ![1]⟩
abbrev S256x1 : Shape := ⟨2, ![256, 1]⟩
abbrev S256x8191 : Shape := ⟨2, ![256, 8191]⟩
abbrev S1x8192 : Shape := ⟨2, ![1, 8192]⟩

abbrev nBuf : Space → Nat
  | .hbm => 163
  | .vmem => 0
  | .smem => 0
  | _ => 0

abbrev hbmTy0_0 (i : Nat) : BufTy := match i % 128 with
  | 0 => ⟨S256x8192, .f32⟩
  | 1 => ⟨S8192x8192, .f32⟩
  | 2 => ⟨S8192, .f32⟩
  | 3 => ⟨S8192, .i32⟩
  | 4 => ⟨S_, .i32⟩
  | 5 => ⟨S8192, .i32⟩
  | 6 => ⟨S8192, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i1⟩
  | 18 => ⟨S_, .i32⟩
  | 19 => ⟨S8192, .i32⟩
  | 20 => ⟨S8192, .i1⟩
  | 21 => ⟨S_, .i32⟩
  | 22 => ⟨S_, .i1⟩
  | 23 => ⟨S8192, .i1⟩
  | 24 => ⟨S8192, .i1⟩
  | 25 => ⟨S8192, .i1⟩
  | 26 => ⟨S8192, .i32⟩
  | 27 => ⟨S8192, .i32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192x1, .i32⟩
  | 45 => ⟨S8192x2, .i32⟩
  | 46 => ⟨S8192, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x1, .i32⟩
  | 63 => ⟨S8192x2, .i32⟩
  | 64 => ⟨S8192, .f32⟩
  | 65 => ⟨S_, .i32⟩
  | 66 => ⟨S8192, .i32⟩
  | 67 => ⟨S8192, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i1⟩
  | 79 => ⟨S_, .i32⟩
  | 80 => ⟨S8192, .i32⟩
  | 81 => ⟨S8192, .i1⟩
  | 82 => ⟨S_, .i32⟩
  | 83 => ⟨S_, .i1⟩
  | 84 => ⟨S8192, .i1⟩
  | 85 => ⟨S8192, .i1⟩
  | 86 => ⟨S8192, .i1⟩
  | 87 => ⟨S8192, .i32⟩
  | 88 => ⟨S8192, .i32⟩
  | 89 => ⟨S8192, .i32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S8192x1, .i32⟩
  | 106 => ⟨S8192x2, .i32⟩
  | 107 => ⟨S8192, .f32⟩
  | 108 => ⟨S_, .f32⟩
  | 109 => ⟨S8192, .f32⟩
  | 110 => ⟨S8192, .f32⟩
  | 111 => ⟨S8192, .f32⟩
  | 112 => ⟨S8192, .f32⟩
  | 113 => ⟨S1, .f32⟩
  | 114 => ⟨S_, .f32⟩
  | 115 => ⟨S_, .i32⟩
  | 116 => ⟨S1, .i32⟩
  | 117 => ⟨S8192, .f32⟩
  | 118 => ⟨S1, .f32⟩
  | 119 => ⟨S_, .f32⟩
  | 120 => ⟨S_, .i32⟩
  | 121 => ⟨S1, .i32⟩
  | 122 => ⟨S8192, .f32⟩
  | 123 => ⟨S1, .f32⟩
  | 124 => ⟨S_, .f32⟩
  | 125 => ⟨S_, .i32⟩
  | 126 => ⟨S1, .i32⟩
  | 127 => ⟨S8192, .f32⟩
  | _ => ⟨S256x8192, .f32⟩

abbrev hbmTy0_1 (i : Nat) : BufTy := match i % 128 with
  | 0 => ⟨S1, .f32⟩
  | 1 => ⟨S_, .f32⟩
  | 2 => ⟨S_, .i32⟩
  | 3 => ⟨S1, .i32⟩
  | 4 => ⟨S8192, .f32⟩
  | 5 => ⟨S1, .f32⟩
  | 6 => ⟨S_, .f32⟩
  | 7 => ⟨S_, .i32⟩
  | 8 => ⟨S1, .i32⟩
  | 9 => ⟨S8192, .f32⟩
  | 10 => ⟨S1, .f32⟩
  | 11 => ⟨S_, .f32⟩
  | 12 => ⟨S_, .i32⟩
  | 13 => ⟨S1, .i32⟩
  | 14 => ⟨S8192, .f32⟩
  | 15 => ⟨S256x1, .f32⟩
  | 16 => ⟨S256x8191, .f32⟩
  | 17 => ⟨S256x8192, .f32⟩
  | 18 => ⟨S256x8191, .f32⟩
  | 19 => ⟨S256x1, .f32⟩
  | 20 => ⟨S256x8192, .f32⟩
  | 21 => ⟨S8192, .f32⟩
  | 22 => ⟨S1x8192, .f32⟩
  | 23 => ⟨S256x8192, .f32⟩
  | 24 => ⟨S256x8192, .f32⟩
  | 25 => ⟨S8192, .f32⟩
  | 26 => ⟨S1x8192, .f32⟩
  | 27 => ⟨S256x8192, .f32⟩
  | 28 => ⟨S256x8192, .f32⟩
  | 29 => ⟨S256x8192, .f32⟩
  | 30 => ⟨S8192, .f32⟩
  | 31 => ⟨S1x8192, .f32⟩
  | 32 => ⟨S256x8192, .f32⟩
  | 33 => ⟨S256x8192, .f32⟩
  | 34 => ⟨S256x8192, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v3 : Ref sig .tc := ⟨.hbm, 28, rfl⟩
abbrev main_c_1 : Ref sig .tc := ⟨.hbm, 29, rfl⟩
abbrev main_v4 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_c_4 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_v23 : Ref sig .tc := ⟨.hbm, 55, rfl⟩
abbrev main_v24 : Ref sig .tc := ⟨.hbm, 56, rfl⟩
abbrev main_c_8 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_v32 : Ref sig .tc := ⟨.hbm, 66, rfl⟩
abbrev main_v33 : Ref sig .tc := ⟨.hbm, 67, rfl⟩
abbrev main_c_10 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_1 : Ref sig .tc := ⟨.hbm, 76, rfl⟩
abbrev main_call1_v5 : Ref sig .tc := ⟨.hbm, 77, rfl⟩
abbrev main_call1_v6 : Ref sig .tc := ⟨.hbm, 78, rfl⟩
abbrev main_call1_c_2 : Ref sig .tc := ⟨.hbm, 79, rfl⟩
abbrev main_call1_v7 : Ref sig .tc := ⟨.hbm, 80, rfl⟩
abbrev main_call1_v8 : Ref sig .tc := ⟨.hbm, 81, rfl⟩
abbrev main_call1_c_3 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_v34 : Ref sig .tc := ⟨.hbm, 89, rfl⟩
abbrev main_c_11 : Ref sig .tc := ⟨.hbm, 90, rfl⟩
abbrev main_v35 : Ref sig .tc := ⟨.hbm, 91, rfl⟩
abbrev main_v36 : Ref sig .tc := ⟨.hbm, 92, rfl⟩
abbrev main_c_12 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_c_13 : Ref sig .tc := ⟨.hbm, 97, rfl⟩
abbrev main_v40 : Ref sig .tc := ⟨.hbm, 98, rfl⟩
abbrev main_v41 : Ref sig .tc := ⟨.hbm, 99, rfl⟩
abbrev main_c_14 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_c_15 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_c_16 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_c_17 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_c_18 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_c_19 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_c_20 : Ref sig .tc := ⟨.hbm, 140, rfl⟩
abbrev main_v75 : Ref sig .tc := ⟨.hbm, 141, rfl⟩
abbrev main_v76 : Ref sig .tc := ⟨.hbm, 142, rfl⟩
abbrev main_call2_v0 : Ref sig .tc := ⟨.hbm, 143, rfl⟩
abbrev main_call2_v1 : Ref sig .tc := ⟨.hbm, 144, rfl⟩
abbrev main_v77 : Ref sig .tc := ⟨.hbm, 145, rfl⟩
abbrev main_call3_v0 : Ref sig .tc := ⟨.hbm, 146, rfl⟩
abbrev main_call3_v1 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  slices_S8192_S1_0 : S8192.Slices ![0] S1
  shapeCasts_S1_S_ : S1.ShapeCasts S_
  bcast_S_S1 : S_.BroadcastsInDim S1 (![] : Fin 0 → Fin S1.rank)
  slices_S8192_S1_8191 : S8192.Slices ![8191] S1
  slices_S256x8192_S256x1_0_8191 : S256x8192.Slices ![0, 8191] S256x1
  slices_S256x8192_S256x8191_0_0 : S256x8192.Slices ![0, 0] S256x8191
  concatenates_S256x1_S256x8191_S256x8192_d1 : Shape.Concatenates [S256x1, S256x8191] S256x8192 1
  slices_S256x8192_S256x8191_0_1 : S256x8192.Slices ![0, 1] S256x8191
  slices_S256x8192_S256x1_0_0 : S256x8192.Slices ![0, 0] S256x1
  concatenates_S256x8191_S256x1_S256x8192_d1 : Shape.Concatenates [S256x8191, S256x1] S256x8192 1
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  gather_S8192x8192_S8192x2_S8192_n_01_n_n_01_1_11_wf : GatherDims.WF S8192x8192 S8192x2 S8192 [] [0, 1] [] [0, 1] [] 1 ![1, 1]
  scatter_S8192_S1_S__n_0_0_0_wf : ScatterDims.WF S8192 S1 S_ [] [0] [0] 0

variable [Facts₀]

def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf
def scatter_S8192_S1_S__n_0_0_0 : ScatterDims S8192 S1 S_ where
  updateWindowDims := []
  insertedWindowDims := [0]
  scatterDimsToOperandDims := [0]
  indexVectorDim := 0
  wf := scatter_S8192_S1_S__n_0_0_0_wf

class Facts : Prop extends Facts₀ where

variable [Facts]
-- ==== Proof.K.Region0.lean ====
/-
  The first kernel region of the kernel as printed: one grid point reads three 256×256 blocks of the weight
  matrix — the block on the diagonal and its left and right neighbours on the block row, around the end — and writes
  three 256×1 columns: the entries just left of the diagonal, the diagonal, and the entries just right of it.
  What each output block holds after the body is the list of the body's stores over named values of the loaded
  blocks; the body's run, the proof data of the pipeline (each input block as fetched, each output block as stored,
  the weight matrix dealt among its three windows at three fractions of it) and the obligation at a grid point.
-/
import proofs.«178726_j37838661878516_1_alg».proof.Proof.Gen.Kernel.Launch
import proofs.«178726_j37838661878516_1_alg».proof.Proof.Gen.Kernel.Skeleton
import proofs.«178726_j37838661878516_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 256×256 block (what each load reads) and the whole 256×1 column (what each store writes). -/
abbrev rIn0 : Rect S256x256 := Rect.unit (s := S256x256) ![0, 0] S256x256.size inb_S256x256_S256x256_0_0
abbrev rOut0 : Rect S256x1 := Rect.unit (s := S256x1) ![0, 0] S256x1.size inb_S256x1_S256x1_0_0

/-- The column left of the diagonal after the body: from the left neighbour's block `xl` and the diagonal block `xm`. -/
def out0_3 (xl xm : Vec F S256x256 .f32) : Vec F S256x1 .f32 :=
  View.canon [⟨rOut0, k0_pay4 (View.ld xm rIn0) (View.ld xl rIn0)⟩]
/-- The diagonal's column after the body: from the diagonal block. -/
def out0_4 (xm : Vec F S256x256 .f32) : Vec F S256x1 .f32 :=
  View.canon [⟨rOut0, k0_pay2 (View.ld xm rIn0)⟩]
/-- The column right of the diagonal after the body: from the diagonal block and the right neighbour's block `xr`. -/
def out0_5 (xm xr : Vec F S256x256 .f32) : Vec F S256x1 .f32 :=
  View.canon [⟨rOut0, k0_pay1 (k0_pay3 (View.ld xm rIn0)) (View.ld xr rIn0) k0_pay5⟩]

/-- One store of the whole column covers it. -/
theorem cover0 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging memrefs, the inputs' at contents `xl`, `xm`, `xr` and the outputs' at anything, runs to
    the continuation holding the inputs' as they were and each output's at its column. -/
theorem sound_kernel0 (c : Dev nD) (E : Set ℕ) (i : grid0.Coords)
    (arg1 : Memref sig .tc .vmem S256x256 .f32) (harg1 : arg1.IsWhole) (arg2 : Memref sig .tc .vmem S256x256 .f32) (harg2 : arg2.IsWhole)
    (arg3 : Memref sig .tc .vmem S256x256 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (xl xm xr : Vec F S256x256 .f32) (K : PUnit → sProp 𝕄) :
    iprop(owns (c : Thread nD τ) arg1 fullShare xl ∗ owns (c : Thread nD τ) arg2 fullShare xm ∗ owns (c : Thread nD τ) arg3 fullShare xr
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare xl ∗ owns (c : Thread nD τ) arg2 fullShare xm ∗ owns (c : Thread nD τ) arg3 fullShare xr
            ∗ owns (c : Thread nD τ) arg4 fullShare (out0_3 xl xm) ∗ owns (c : Thread nD τ) arg5 fullShare (out0_4 xm)
            ∗ owns (c : Thread nD τ) arg6 fullShare (out0_5 xm xr)) -∗ K ⟨⟩))
      ⊢ wp frame (wpE (defs₀ (F := F)) Variants.none c none) E (cc0__diag_kernel i arg1 harg1 arg2 harg2 arg3 harg3 arg4 harg4 arg5 harg5 arg6 harg6) K := by
  simp only [cc0__diag_kernel_eq_skeleton]; unfold cc0__diag_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The proof data of the first pipeline on core `c`: the arrays as the region finds them; after the body at point `t`
    each input's buffer at its block and each output's at its column of the input blocks; the weight matrix held by
    its three windows at a half, a quarter and a quarter of it; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 1 t)
    | ⟨5, _⟩ => out0_5 (iblk0 V c 1 t) (iblk0 V c 2 t)
  Φ _ := Pipeline.ΦA spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 1 t) := by dsimp only [dat0]
theorem after0_5 (c : Dev nD) (t : Fin cfg0.N) : (dat0 V c).after 5 t = out0_5 (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, what the core owes, and each window's current staging
    memref at what it then holds, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same at the next point, each memref at what the body leaves in it. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the three input memrefs hold their blocks, the three output memrefs hold anything, so the
    body's run applies; the invariant and what the core owes pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The second kernel region of the kernel as printed: one grid point reads a 64×8192 block of rows of the input and the
  three 1×8192 coefficient rows (each fetched once, at the first point, and kept), and writes the 64×8192 block of
  the result: every entry the sum of three products — the entry to its left on its row (around the end) times the first
  coefficient of its column, the entry itself times the second, the entry to its right times the third.
  What the output block holds after the body is the body's one store over a named value of the loaded blocks; the
  body's run, the pipeline's proof data and the obligation at a grid point.
-/
import proofs.«178726_j37838661878516_1_alg».proof.Proof.Gen.Kernel.Launch
import proofs.«178726_j37838661878516_1_alg».proof.Proof.Gen.Kernel.Skeleton
import proofs.«178726_j37838661878516_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window not
    fetched at a point has not moved), for any proof data whose array is the entry contents and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole 64×8192 block and the whole 1×8192 row (what the loads read and the store writes). -/
abbrev rBlk1 : Rect S64x8192 := Rect.unit (s := S64x8192) ![0, 0] S64x8192.size inb_S64x8192_S64x8192_0_0
abbrev rRow1 : Rect S1x8192 := Rect.unit (s := S1x8192) ![0, 0] S1x8192.size inb_S1x8192_S1x8192_0_0

/-- The result block after the body: from the input block `x` and the three coefficient rows. -/
def out1_4 (x : Vec F S64x8192 .f32) (a b e : Vec F S1x8192 .f32) : Vec F S64x8192 .f32 :=
  View.canon [⟨rBlk1, k1_pay1 (View.ld x rBlk1) (View.ld a rRow1) (View.ld b rRow1) (View.ld e rRow1)⟩]

/-- One store of the whole block covers it. -/
theorem cover1 (p0 : Vec F S64x8192 .f32) (y : S64x8192.Idx) :
    ∃ pc ∈ ([⟨rBlk1, p0⟩] : List (View.Piece (Elt F) S64x8192 .f32)), y ∈ pc.1.set :=
  View.cover_of_tiled [⟨rBlk1, p0⟩] S64x8192.size (by rfl) y

set_option maxHeartbeats 1000000 in
/-- The body on whole staging memrefs, the inputs' at contents `x`, `a`, `b`, `e` and the output's at anything, runs to
    the continuation holding the inputs' as they were and the output's at its block. -/
theorem sound_kernel1 (c : Dev nD) (E : Set ℕ) (i : grid1.Coords)
    (arg1 : Memref sig .tc .vmem S64x8192 .f32) (harg1 : arg1.IsWhole) (arg2 : Memref sig .tc .vmem S1x8192 .f32) (harg2 : arg2.IsWhole)
    (arg3 : Memref sig .tc .vmem S1x8192 .f32) (harg3 : arg3.IsWhole) (arg4 : Memref sig .tc .vmem S1x8192 .f32) (harg4 : arg4.IsWhole)
    (arg5 : Memref sig .tc .vmem S64x8192 .f32) (harg5 : arg5.IsWhole)
    (x : Vec F S64x8192 .f32) (a b e : Vec F S1x8192 .f32) (K : PUnit → sProp 𝕄) :
    iprop(owns (c : Thread nD τ) arg1 fullShare x ∗ owns (c : Thread nD τ) arg2 fullShare a ∗ owns (c : Thread nD τ) arg3 fullShare b
        ∗ owns (c : Thread nD τ) arg4 fullShare e ∗ (∃ d, owns (c : Thread nD τ) arg5 fullShare d)
        ∗ (iprop(owns (c : Thread nD τ) arg1 fullShare x ∗ owns (c : Thread nD τ) arg2 fullShare a ∗ owns (c : Thread nD τ) arg3 fullShare b
            ∗ owns (c : Thread nD τ) arg4 fullShare e ∗ owns (c : Thread nD τ) arg5 fullShare (out1_4 x a b e)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f1, %hf1, H1⟩, ⟨%f2, %hf2, H2⟩, ⟨%f3, %hf3, H3⟩, ⟨%f4, %hf4, H4⟩, ⟨%d5, %f5, %hf5, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- The proof data of the second pipeline on core `c`: the arrays as the region finds them; after the body at point
    `t` each input's buffer at its block and the output's at its block of the input blocks; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`: the invariant, what the core owes, and each window's current staging
    buffer at what it then holds, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same at the next point, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four inputs' buffers hold their blocks, the output's holds anything, so the body's run
    on whole memrefs applies; the invariant and what the core owes are the same at the next point and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Contents.lean ====
/-
  The buffers' contents of the kernel as printed between the items of its main function, on one core: at launch; after
  the first kernel region, which leaves its three columns in three buffers and everything else as it was; after the
  host operations between the regions; and after the second kernel region, which leaves the result.
-/
import proofs.«178726_j37838661878516_1_alg».proof.Proof.K.Region0
import proofs.«178726_j37838661878516_1_alg».proof.Proof.K.Region1

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch: what the first region is entered from. -/
abbrev W0 (c : Dev nD) : Valuation τ sig (Elt F) := fun b => m (c, b)
/-- The same read at the TensorCore's references. -/
abbrev V0 (c : Dev nD) (b : Ref sig .tc) : Buf (Elt F) ((c : Thread nD τ).loc b) := W0 m c b

/-- What the first region leaves in its three output arrays: the write-backs of all its grid points. -/
abbrev subCol (c : Dev nD) : Buf (Elt F) ((c : Thread nD τ).loc main_v0_0) := (dat0 (V0 m) c).arrAt 3 cfg0.N
abbrev diagCol (c : Dev nD) : Buf (Elt F) ((c : Thread nD τ).loc main_v0_1) := (dat0 (V0 m) c).arrAt 4 cfg0.N
abbrev supCol (c : Dev nD) : Buf (Elt F) ((c : Thread nD τ).loc main_v0_2) := (dat0 (V0 m) c).arrAt 5 cfg0.N

/-- Core `c`'s buffers after the first region. -/
def W1 (c : Dev nD) : Valuation τ sig (Elt F) :=
  Function.update (Function.update (Function.update (W0 m c) main_v0_0 (subCol m c)) main_v0_1 (diagCol m c)) main_v0_2 (supCol m c)

/-- Core `c`'s buffers after the host operations between the regions: what the second region is entered from. -/
abbrev W2 (c : Dev nD) : Valuation τ sig (Elt F) := StableHlo.after hostOps1 (W1 m c)
/-- The same read at the TensorCore's references. -/
abbrev V2 (c : Dev nD) (b : Ref sig .tc) : Buf (Elt F) ((c : Thread nD τ).loc b) := W2 m c b

/-- What the second region leaves in its output array: the result. -/
abbrev result (c : Dev nD) : Buf (Elt F) ((c : Thread nD τ).loc main_v38) := (dat1 (V2 m) c).arrAt 4 cfg1.N

/-- Core `c`'s buffers after the second region. -/
def W3 (c : Dev nD) : Valuation τ sig (Elt F) := Function.update (W2 m c) main_v38 (result m c)

end Cert.Kernel.Hand

end
-- ==== Proof.K.Run.lean ====
/-
  The run of the kernel as printed's main function: the first kernel region, the host operations, the second kernel
  region, from any launch memory with zero counters. Every weakly fair execution terminates without a fault, the
  result buffer ends at what the second region's write-backs leave in it and the three arguments end as launched.

  Between two items core `c` holds every unscoped buffer whole at the contents of `Contents.lean`; the weight matrix,
  which the first region hands to three of its windows, is dealt among them at a half, a quarter and a quarter at the
  region's entry and put together again at its exit (all three fractions still hold the launch contents: an input
  window's array is never written).
-/
import proofs.«178726_j37838661878516_1_alg».proof.Proof.K.Contents
import proofs.«178726_j37838661878516_1_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first region's arrays: four buffers, six windows -/

/-- The buffers behind the first region's windows are the weight matrix and the three columns. -/
theorem arrBufs0_eq (c : Dev nD) (V : (b : Ref sig .tc) → Buf (Elt F) ((c : Thread nD τ).loc b)) :
    (Pipeline.arrBufs spec0 c V : sProp 𝕄)
      = iprop((((c : Thread nD τ).loc main_arg1) ↦{fullShare} V main_arg1) ∗ (((c : Thread nD τ).loc main_v0_0) ↦{fullShare} V main_v0_0)
          ∗ (((c : Thread nD τ).loc main_v0_1) ↦{fullShare} V main_v0_1) ∗ (((c : Thread nD τ).loc main_v0_2) ↦{fullShare} V main_v0_2)) := by
  unfold Pipeline.arrBufs
  exact bigSep_eq_bigSepL_of_eq [main_arg1, main_v0_0, main_v0_1, main_v0_2] (by decide) (by decide) _

/-- The first region's arrays window by window: the weight matrix at a half, a quarter and a quarter, the three
    columns whole. -/
theorem arrays0_eq (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄)
      = iprop((((c : Thread nD τ).loc main_arg1) ↦{fullShare.left} G 0) ∗ (((c : Thread nD τ).loc main_arg1) ↦{fullShare.right.left} G 1)
          ∗ (((c : Thread nD τ).loc main_arg1) ↦{fullShare.right.right} G 2)
          ∗ (((c : Thread nD τ).loc main_v0_0) ↦{fullShare} G 3) ∗ (((c : Thread nD τ).loc main_v0_1) ↦{fullShare} G 4)
          ∗ (((c : Thread nD τ).loc main_v0_2) ↦{fullShare} G 5)) := by
  unfold Dat.arrays
  rw [bigSep_W0, (arr_whole0 0).set_eq_univ, (arr_whole0 3).set_eq_univ, (arr_whole0 4).set_eq_univ, (arr_whole0 5).set_eq_univ]
  rfl

/-- A buffer held whole is held at a half, a quarter and a quarter, and back. -/
theorem deal3 {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H := (pointsTo_share (PosShare.mem_left_op_right fullShare)).1 $$ H
    icases H with ⟨Hl, Hr⟩
    ihave Hr := (pointsTo_share (PosShare.mem_left_op_right fullShare.right)).1 $$ Hr
    isplitl [Hl]; · iexact Hl
    iexact Hr
  · iintro ⟨Hl, Hr⟩
    ihave Hr := (pointsTo_share (PosShare.mem_left_op_right fullShare.right)).2 $$ Hr
    iapply (pointsTo_share (PosShare.mem_left_op_right fullShare)).2
    isplitl [Hl]; · iexact Hl
    iexact Hr

/-! ## The contents after the first region, read buffer by buffer -/

theorem W1_v0_2 (c : Dev nD) : W1 m c main_v0_2 = supCol m c := by
  unfold W1; exact Function.update_self ..
theorem W1_v0_1 (c : Dev nD) : W1 m c main_v0_1 = diagCol m c := by
  unfold W1
  rw [Function.update_of_ne (StableHlo.devRef_ne_of_ne (by decide) : (Proc.devRef .tc main_v0_1 : DevRef τ sig) ≠ Proc.devRef .tc main_v0_2)]
  exact Function.update_self ..
theorem W1_v0_0 (c : Dev nD) : W1 m c main_v0_0 = subCol m c := by
  unfold W1
  rw [Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1)]
  exact Function.update_self ..
/-- Every other buffer is as launched. -/
theorem W1_of_ne (c : Dev nD) (b : Ref sig .tc) (h0 : b ≠ main_v0_0) (h1 : b ≠ main_v0_1) (h2 : b ≠ main_v0_2) :
    W1 m c b = W0 m c b := by
  unfold W1
  rw [Function.update_of_ne (StableHlo.devRef_ne_of_ne h2 : (Proc.devRef .tc b : DevRef τ sig) ≠ Proc.devRef .tc main_v0_2),
    Function.update_of_ne (StableHlo.devRef_ne_of_ne h1 : (Proc.devRef .tc b : DevRef τ sig) ≠ Proc.devRef .tc main_v0_1),
    Function.update_of_ne (StableHlo.devRef_ne_of_ne h0 : (Proc.devRef .tc b : DevRef τ sig) ≠ Proc.devRef .tc main_v0_0)]

/-! ## The first region's arrays out of the unscoped buffers, and back -/

/-- ENTRY: the unscoped buffers at the launch contents are the first region's arrays — the weight matrix dealt at
    a half, a quarter and a quarter among its three windows — and the rest. -/
theorem arrays_in0 (c : Dev nD) :
    (unscopedBufs c (V0 m c) : sProp 𝕄)
      ⊢ iprop((dat0 (V0 m) c).arrays ((dat0 (V0 m) c).arrAt · 0) ∗ Pipeline.unscopedRest spec0 c (V0 m c)) := by
  rw [show (unscopedBufs c (V0 m c) : sProp 𝕄) = iprop(Pipeline.arrBufs spec0 c (V0 m c) ∗ Pipeline.unscopedRest spec0 c (V0 m c))
      from Pipeline.unscopedBufs_split₀ (Ix := Unit) (Name := ℕ) (U := UR sig nD τ) (Lvl := ℕ) cfgs 0 winFacts₀0.arr_unscoped c (V0 m c),
    arrBufs0_eq, arrays0_eq]
  iintro ⟨⟨Ha, H0, H1, H2⟩, Hrest⟩
  ihave Ha := (deal3 _).1 $$ Ha
  icases Ha with ⟨Hl, Hrl, Hrr⟩
  isplitr [Hrest]
  swap; · iexact Hrest
  isplitl [Hl]; · iexact Hl
  isplitl [Hrl]; · iexact Hrl
  isplitl [Hrr]; · iexact Hrr
  isplitl [H0]; · iexact H0
  isplitl [H1]; · iexact H1
  iexact H2

/-- EXIT: the first region's arrays as its write-backs leave them — the three fractions of the weight matrix still
    at the launch contents, the three columns whole — and the rest are the unscoped buffers at the contents after
    the region. -/
theorem arrays_out0 (c : Dev nD) :
    iprop((dat0 (V0 m) c).arrays ((dat0 (V0 m) c).arrAt · cfg0.N) ∗ Pipeline.unscopedRest spec0 c (V0 m c))
      ⊢ (unscopedBufs c (fun b => W1 m c b) : sProp 𝕄) := by
  rw [show (unscopedBufs c (fun b => W1 m c b) : sProp 𝕄)
        = iprop(Pipeline.arrBufs spec0 c (fun b => W1 m c b) ∗ Pipeline.unscopedRest spec0 c (fun b => W1 m c b))
      from Pipeline.unscopedBufs_split₀ (Ix := Unit) (Name := ℕ) (U := UR sig nD τ) (Lvl := ℕ) cfgs 0 winFacts₀0.arr_unscoped c (fun b => W1 m c b),
    arrBufs0_eq, arrays0_eq,
    show (Pipeline.unscopedRest spec0 c (fun b => W1 m c b) : sProp 𝕄) = Pipeline.unscopedRest spec0 c (V0 m c) from by
      unfold Pipeline.unscopedRest
      refine bigSep_congr fun b hb => ?_
      have hb' := (Finset.mem_sdiff.mp hb).2
      beta_reduce
      rw [show W1 m c b = V0 m c b from W1_of_ne m c b
        (fun e => hb' (Finset.mem_image.mpr ⟨3, Finset.mem_univ _, e.symm⟩))
        (fun e => hb' (Finset.mem_image.mpr ⟨4, Finset.mem_univ _, e.symm⟩))
        (fun e => hb' (Finset.mem_image.mpr ⟨5, Finset.mem_univ _, e.symm⟩))]]
  beta_reduce
  rw [show (dat0 (V0 m) c).arrAt 0 cfg0.N = V0 m c main_arg1 from ((dat0 (V0 m) c).arrAt_in 0 rfl _).trans (A_eq0 (V0 m) c 0),
    show (dat0 (V0 m) c).arrAt 1 cfg0.N = V0 m c main_arg1 from ((dat0 (V0 m) c).arrAt_in 1 rfl _).trans (A_eq0 (V0 m) c 1),
    show (dat0 (V0 m) c).arrAt 2 cfg0.N = V0 m c main_arg1 from ((dat0 (V0 m) c).arrAt_in 2 rfl _).trans (A_eq0 (V0 m) c 2),
    show W1 m c main_arg1 = V0 m c main_arg1 from W1_of_ne m c main_arg1 (by decide) (by decide) (by decide),
    W1_v0_0, W1_v0_1, W1_v0_2]
  iintro ⟨⟨Hl, Hrl, Hrr, H0, H1, H2⟩, Hrest⟩
  isplitr [Hrest]
  swap; · iexact Hrest
  isplitl [Hl Hrl Hrr]
  · iapply (deal3 _).2
    isplitl [Hl]; · iexact Hl
    isplitl [Hrl]; · iexact Hrl
    iexact Hrr
  isplitl [H0]; · iexact H0
  isplitl [H1]; · iexact H1
  iexact H2

/-! ## The contents after the second region, read buffer by buffer -/

theorem W3_v38 (c : Dev nD) : W3 m c main_v38 = result m c := by
  unfold W3; exact Function.update_self ..
theorem W3_of_ne (c : Dev nD) (b : Ref sig .tc) (h : b ≠ main_v38) : W3 m c b = W2 m c b := by
  unfold W3
  rw [Function.update_of_ne (StableHlo.devRef_ne_of_ne h : (Proc.devRef .tc b : DevRef τ sig) ≠ Proc.devRef .tc main_v38)]

/-- A buffer that no region's write-back and no host operation writes reaches the end as launched. -/
theorem W3_arg (c : Dev nD) (r : Ref sig .tc) (h38 : r ≠ main_v38) (hW : r ∉ hostOps1_W)
    (h0 : r ≠ main_v0_0) (h1 : r ≠ main_v0_1) (h2 : r ≠ main_v0_2) : W3 m c r = m ((c : Thread nD τ).loc r) :=
  (W3_of_ne m c r h38).trans <| (StableHlo.after_of_writes_sub hostOps1 _ hostOps1_writes hW).trans <| (W1_of_ne m c r h0 h1 h2).trans rfl

/-- The contents after each region read at the TensorCore's references. -/
abbrev V1 (c : Dev nD) (b : Ref sig .tc) : Buf (Elt F) ((c : Thread nD τ).loc b) := W1 m c b
abbrev V3 (c : Dev nD) (b : Ref sig .tc) : Buf (Elt F) ((c : Thread nD τ).loc b) := W3 m c b

/-- At the second region's exit each of its arrays holds what the pipeline leaves: the four inputs what they held at
    entry, the output the result; -/
theorem hF1 (c : Dev nD) : ∀ w : Fin cfg1.W, (dat1 (V2 m) c).arrAt w cfg1.N = V3 m c (Pipeline.arrRef spec1 w)
  | ⟨0, _⟩ => (((dat1 (V2 m) c).arrAt_in 0 rfl _).trans (A_eq1 (V2 m) c 0)).trans (W3_of_ne m c main_arg0 (by decide)).symm
  | ⟨1, _⟩ => (((dat1 (V2 m) c).arrAt_in 1 rfl _).trans (A_eq1 (V2 m) c 1)).trans (W3_of_ne m c main_v33 (by decide)).symm
  | ⟨2, _⟩ => (((dat1 (V2 m) c).arrAt_in 2 rfl _).trans (A_eq1 (V2 m) c 2)).trans (W3_of_ne m c main_v35 (by decide)).symm
  | ⟨3, _⟩ => (((dat1 (V2 m) c).arrAt_in 3 rfl _).trans (A_eq1 (V2 m) c 3)).trans (W3_of_ne m c main_v37 (by decide)).symm
  | ⟨4, _⟩ => (W3_v38 m c).symm
/-- and every other buffer what it held at entry. -/
theorem hrest1 (c : Dev nD) : ∀ b, b ∉ Finset.univ.image (Pipeline.arrRef spec1) → V3 m c b = V2 m c b :=
  fun b hb => W3_of_ne m c b fun e => hb (Finset.mem_image.mpr ⟨4, Finset.mem_univ _, e.symm⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
/-- The host operations as an item: over the unscoped buffers from the contents `W`, left at those contents after the
    operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- THE FIRST REGION over the thread state: entered from every unscoped buffer at the launch contents, left at the
    contents after it. Its arrays dealt out of the unscoped buffers and put back; the generator register into the
    pipeline's invariant and out; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := arrays_in0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_out0 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the contents after the host
    operations, left at the last contents. Its arrays, distinct buffers, split out of the unscoped buffers and put
    back at the exit contents; the generator register into the pipeline's invariant and out; nothing owed; no
    semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as items, and the launch -/

/-- The main function's three items in order: the first region, the host operations from the contents after it, the
    second region. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- The main function is the run of the items. -/
theorem main_run (c : Dev nD) : main (F := F) c = Pipeline.Seg.run (segs m) := (main_chain c).trans (by chain_rfl)

set_option backward.isDefEq.respectTransparency.types false in
/-- THE RUN, at any float instance. -/
theorem run : θ_run defs (onTc (τ := τ) (main (F := F))) ⟨m, fun _ => 0, ρ⟩ (fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v38 (by decide))).trans (W3_v38 m c),
        (h c _ (mem_uc main_arg0 (by decide))).trans (W3_arg m c main_arg0 (by decide) (by decide) (by decide) (by decide) (by decide)),
        (h c _ (mem_uc main_arg1 (by decide))).trans (W3_arg m c main_arg1 (by decide) (by decide) (by decide) (by decide) (by decide)),
        (h c _ (mem_uc main_arg2 (by decide))).trans (W3_arg m c main_arg2 (by decide) (by decide) (by decide) (by decide) (by decide))⟩)

end Cert.Kernel.Hand

end
-- ==== Proof.KI.Region0.lean ====
/-
  The first kernel region of the idealized kernel: one grid point reads three 256×256 blocks of the weight
  matrix — the block on the diagonal and its left and right neighbours on the block row, around the end — and writes
  three 256×1 columns: the entries just left of the diagonal, the diagonal, and the entries just right of it.
  What each output block holds after the body is the list of the body's stores over named values of the loaded
  blocks; the body's run, the proof data of the pipeline (each input block as fetched, each output block as stored,
  the weight matrix dealt among its three windows at three fractions of it) and the obligation at a grid point.
-/
import proofs.«178726_j37838661878516_1_alg».proof.Proof.Gen.KernelIdeal.Launch
import proofs.«178726_j37838661878516_1_alg».proof.Proof.Gen.KernelIdeal.Skeleton
import proofs.«178726_j37838661878516_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 256×256 block (what each load reads) and the whole 256×1 column (what each store writes). -/
abbrev rIn0 : Rect S256x256 := Rect.unit (s := S256x256) ![0, 0] S256x256.size inb_S256x256_S256x256_0_0
abbrev rOut0 : Rect S256x1 := Rect.unit (s := S256x1) ![0, 0] S256x1.size inb_S256x1_S256x1_0_0

/-- The column left of the diagonal after the body: from the left neighbour's block `xl` and the diagonal block `xm`. -/
def out0_3 (xl xm : Vec F S256x256 .f32) : Vec F S256x1 .f32 :=
  View.canon [⟨rOut0, k0_pay4 (View.ld xm rIn0) (View.ld xl rIn0)⟩]
/-- The diagonal's column after the body: from the diagonal block. -/
def out0_4 (xm : Vec F S256x256 .f32) : Vec F S256x1 .f32 :=
  View.canon [⟨rOut0, k0_pay2 (View.ld xm rIn0)⟩]
/-- The column right of the diagonal after the body: from the diagonal block and the right neighbour's block `xr`. -/
def out0_5 (xm xr : Vec F S256x256 .f32) : Vec F S256x1 .f32 :=
  View.canon [⟨rOut0, k0_pay1 (k0_pay3 (View.ld xm rIn0)) (View.ld xr rIn0) k0_pay5⟩]

/-- One store of the whole column covers it. -/
theorem cover0 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging memrefs, the inputs' at contents `xl`, `xm`, `xr` and the outputs' at anything, runs to
    the continuation holding the inputs' as they were and each output's at its column. -/
theorem sound_kernel0 (c : Dev nD) (E : Set ℕ) (i : grid0.Coords)
    (arg1 : Memref sig .tc .vmem S256x256 .f32) (harg1 : arg1.IsWhole) (arg2 : Memref sig .tc .vmem S256x256 .f32) (harg2 : arg2.IsWhole)
    (arg3 : Memref sig .tc .vmem S256x256 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (xl xm xr : Vec F S256x256 .f32) (K : PUnit → sProp 𝕄) :
    iprop(owns (c : Thread nD τ) arg1 fullShare xl ∗ owns (c : Thread nD τ) arg2 fullShare xm ∗ owns (c : Thread nD τ) arg3 fullShare xr
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare xl ∗ owns (c : Thread nD τ) arg2 fullShare xm ∗ owns (c : Thread nD τ) arg3 fullShare xr
            ∗ owns (c : Thread nD τ) arg4 fullShare (out0_3 xl xm) ∗ owns (c : Thread nD τ) arg5 fullShare (out0_4 xm)
            ∗ owns (c : Thread nD τ) arg6 fullShare (out0_5 xm xr)) -∗ K ⟨⟩))
      ⊢ wp frame (wpE (defs₀ (F := F)) Variants.none c none) E (cc0__diag_kernel i arg1 harg1 arg2 harg2 arg3 harg3 arg4 harg4 arg5 harg5 arg6 harg6) K := by
  simp only [cc0__diag_kernel_eq_skeleton]; unfold cc0__diag_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-- The proof data of the first pipeline on core `c`: the arrays as the region finds them; after the body at point `t`
    each input's buffer at its block and each output's at its column of the input blocks; the weight matrix held by
    its three windows at a half, a quarter and a quarter of it; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 1 t)
    | ⟨5, _⟩ => out0_5 (iblk0 V c 1 t) (iblk0 V c 2 t)
  Φ _ := Pipeline.ΦA spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 1 t) := by dsimp only [dat0]
theorem after0_5 (c : Dev nD) (t : Fin cfg0.N) : (dat0 V c).after 5 t = out0_5 (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, what the core owes, and each window's current staging
    memref at what it then holds, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same at the next point, each memref at what the body leaves in it. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the three input memrefs hold their blocks, the three output memrefs hold anything, so the
    body's run applies; the invariant and what the core owes pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second kernel region of the idealized kernel: one grid point reads a 64×8192 block of rows of the input and the
  three 1×8192 coefficient rows (each fetched once, at the first point, and kept), and writes the 64×8192 block of
  the result: every entry the sum of three products — the entry to its left on its row (around the end) times the first
  coefficient of its column, the entry itself times the second, the entry to its right times the third.
  What the output block holds after the body is the body's one store over a named value of the loaded blocks; the
  body's run, the pipeline's proof data and the obligation at a grid point.
-/
import proofs.«178726_j37838661878516_1_alg».proof.Proof.Gen.KernelIdeal.Launch
import proofs.«178726_j37838661878516_1_alg».proof.Proof.Gen.KernelIdeal.Skeleton
import proofs.«178726_j37838661878516_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window not
    fetched at a point has not moved), for any proof data whose array is the entry contents and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole 64×8192 block and the whole 1×8192 row (what the loads read and the store writes). -/
abbrev rBlk1 : Rect S64x8192 := Rect.unit (s := S64x8192) ![0, 0] S64x8192.size inb_S64x8192_S64x8192_0_0
abbrev rRow1 : Rect S1x8192 := Rect.unit (s := S1x8192) ![0, 0] S1x8192.size inb_S1x8192_S1x8192_0_0

/-- The result block after the body: from the input block `x` and the three coefficient rows. -/
def out1_4 (x : Vec F S64x8192 .f32) (a b e : Vec F S1x8192 .f32) : Vec F S64x8192 .f32 :=
  View.canon [⟨rBlk1, k1_pay1 (View.ld x rBlk1) (View.ld a rRow1) (View.ld b rRow1) (View.ld e rRow1)⟩]

/-- One store of the whole block covers it. -/
theorem cover1 (p0 : Vec F S64x8192 .f32) (y : S64x8192.Idx) :
    ∃ pc ∈ ([⟨rBlk1, p0⟩] : List (View.Piece (Elt F) S64x8192 .f32)), y ∈ pc.1.set :=
  View.cover_of_tiled [⟨rBlk1, p0⟩] S64x8192.size (by rfl) y

set_option maxHeartbeats 1000000 in
/-- The body on whole staging memrefs, the inputs' at contents `x`, `a`, `b`, `e` and the output's at anything, runs to
    the continuation holding the inputs' as they were and the output's at its block. -/
theorem sound_kernel1 (c : Dev nD) (E : Set ℕ) (i : grid1.Coords)
    (arg1 : Memref sig .tc .vmem S64x8192 .f32) (harg1 : arg1.IsWhole) (arg2 : Memref sig .tc .vmem S1x8192 .f32) (harg2 : arg2.IsWhole)
    (arg3 : Memref sig .tc .vmem S1x8192 .f32) (harg3 : arg3.IsWhole) (arg4 : Memref sig .tc .vmem S1x8192 .f32) (harg4 : arg4.IsWhole)
    (arg5 : Memref sig .tc .vmem S64x8192 .f32) (harg5 : arg5.IsWhole)
    (x : Vec F S64x8192 .f32) (a b e : Vec F S1x8192 .f32) (K : PUnit → sProp 𝕄) :
    iprop(owns (c : Thread nD τ) arg1 fullShare x ∗ owns (c : Thread nD τ) arg2 fullShare a ∗ owns (c : Thread nD τ) arg3 fullShare b
        ∗ owns (c : Thread nD τ) arg4 fullShare e ∗ (∃ d, owns (c : Thread nD τ) arg5 fullShare d)
        ∗ (iprop(owns (c : Thread nD τ) arg1 fullShare x ∗ owns (c : Thread nD τ) arg2 fullShare a ∗ owns (c : Thread nD τ) arg3 fullShare b
            ∗ owns (c : Thread nD τ) arg4 fullShare e ∗ owns (c : Thread nD τ) arg5 fullShare (out1_4 x a b e)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f1, %hf1, H1⟩, ⟨%f2, %hf2, H2⟩, ⟨%f3, %hf3, H3⟩, ⟨%f4, %hf4, H4⟩, ⟨%d5, %f5, %hf5, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- The proof data of the second pipeline on core `c`: the arrays as the region finds them; after the body at point
    `t` each input's buffer at its block and the output's at its block of the input blocks; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`: the invariant, what the core owes, and each window's current staging
    buffer at what it then holds, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same at the next point, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four inputs' buffers hold their blocks, the output's holds anything, so the body's run
    on whole memrefs applies; the invariant and what the core owes are the same at the next point and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Contents.lean ====
/-
  The buffers' contents of the idealized kernel between the items of its main function, on one core: at launch; after
  the first kernel region, which leaves its three columns in three buffers and everything else as it was; after the
  host operations between the regions; and after the second kernel region, which leaves the result.
-/
import proofs.«178726_j37838661878516_1_alg».proof.Proof.KI.Region0
import proofs.«178726_j37838661878516_1_alg».proof.Proof.KI.Region1

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch: what the first region is entered from. -/
abbrev W0 (c : Dev nD) : Valuation τ sig (Elt F) := fun b => m (c, b)
/-- The same read at the TensorCore's references. -/
abbrev V0 (c : Dev nD) (b : Ref sig .tc) : Buf (Elt F) ((c : Thread nD τ).loc b) := W0 m c b

/-- What the first region leaves in its three output arrays: the write-backs of all its grid points. -/
abbrev subCol (c : Dev nD) : Buf (Elt F) ((c : Thread nD τ).loc main_v0_0) := (dat0 (V0 m) c).arrAt 3 cfg0.N
abbrev diagCol (c : Dev nD) : Buf (Elt F) ((c : Thread nD τ).loc main_v0_1) := (dat0 (V0 m) c).arrAt 4 cfg0.N
abbrev supCol (c : Dev nD) : Buf (Elt F) ((c : Thread nD τ).loc main_v0_2) := (dat0 (V0 m) c).arrAt 5 cfg0.N

/-- Core `c`'s buffers after the first region. -/
def W1 (c : Dev nD) : Valuation τ sig (Elt F) :=
  Function.update (Function.update (Function.update (W0 m c) main_v0_0 (subCol m c)) main_v0_1 (diagCol m c)) main_v0_2 (supCol m c)

/-- Core `c`'s buffers after the host operations between the regions: what the second region is entered from. -/
abbrev W2 (c : Dev nD) : Valuation τ sig (Elt F) := StableHlo.after hostOps1 (W1 m c)
/-- The same read at the TensorCore's references. -/
abbrev V2 (c : Dev nD) (b : Ref sig .tc) : Buf (Elt F) ((c : Thread nD τ).loc b) := W2 m c b

/-- What the second region leaves in its output array: the result. -/
abbrev result (c : Dev nD) : Buf (Elt F) ((c : Thread nD τ).loc main_v38) := (dat1 (V2 m) c).arrAt 4 cfg1.N

/-- Core `c`'s buffers after the second region. -/
def W3 (c : Dev nD) : Valuation τ sig (Elt F) := Function.update (W2 m c) main_v38 (result m c)

end Cert.KernelIdeal.Hand

end
-- ==== Proof.KI.Run.lean ====
/-
  The run of the idealized kernel's main function: the first kernel region, the host operations, the second kernel
  region, from any launch memory with zero counters. Every weakly fair execution terminates without a fault, the
  result buffer ends at what the second region's write-backs leave in it and the three arguments end as launched.

  Between two items core `c` holds every unscoped buffer whole at the contents of `Contents.lean`; the weight matrix,
  which the first region hands to three of its windows, is dealt among them at a half, a quarter and a quarter at the
  region's entry and put together again at its exit (all three fractions still hold the launch contents: an input
  window's array is never written).
-/
import proofs.«178726_j37838661878516_1_alg».proof.Proof.KI.Contents
import proofs.«178726_j37838661878516_1_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first region's arrays: four buffers, six windows -/

/-- The buffers behind the first region's windows are the weight matrix and the three columns. -/
theorem arrBufs0_eq (c : Dev nD) (V : (b : Ref sig .tc) → Buf (Elt F) ((c : Thread nD τ).loc b)) :
    (Pipeline.arrBufs spec0 c V : sProp 𝕄)
      = iprop((((c : Thread nD τ).loc main_arg1) ↦{fullShare} V main_arg1) ∗ (((c : Thread nD τ).loc main_v0_0) ↦{fullShare} V main_v0_0)
          ∗ (((c : Thread nD τ).loc main_v0_1) ↦{fullShare} V main_v0_1) ∗ (((c : Thread nD τ).loc main_v0_2) ↦{fullShare} V main_v0_2)) := by
  unfold Pipeline.arrBufs
  exact bigSep_eq_bigSepL_of_eq [main_arg1, main_v0_0, main_v0_1, main_v0_2] (by decide) (by decide) _

/-- The first region's arrays window by window: the weight matrix at a half, a quarter and a quarter, the three
    columns whole. -/
theorem arrays0_eq (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄)
      = iprop((((c : Thread nD τ).loc main_arg1) ↦{fullShare.left} G 0) ∗ (((c : Thread nD τ).loc main_arg1) ↦{fullShare.right.left} G 1)
          ∗ (((c : Thread nD τ).loc main_arg1) ↦{fullShare.right.right} G 2)
          ∗ (((c : Thread nD τ).loc main_v0_0) ↦{fullShare} G 3) ∗ (((c : Thread nD τ).loc main_v0_1) ↦{fullShare} G 4)
          ∗ (((c : Thread nD τ).loc main_v0_2) ↦{fullShare} G 5)) := by
  unfold Dat.arrays
  rw [bigSep_W0, (arr_whole0 0).set_eq_univ, (arr_whole0 3).set_eq_univ, (arr_whole0 4).set_eq_univ, (arr_whole0 5).set_eq_univ]
  rfl

/-- A buffer held whole is held at a half, a quarter and a quarter, and back. -/
theorem deal3 {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H := (pointsTo_share (PosShare.mem_left_op_right fullShare)).1 $$ H
    icases H with ⟨Hl, Hr⟩
    ihave Hr := (pointsTo_share (PosShare.mem_left_op_right fullShare.right)).1 $$ Hr
    isplitl [Hl]; · iexact Hl
    iexact Hr
  · iintro ⟨Hl, Hr⟩
    ihave Hr := (pointsTo_share (PosShare.mem_left_op_right fullShare.right)).2 $$ Hr
    iapply (pointsTo_share (PosShare.mem_left_op_right fullShare)).2
    isplitl [Hl]; · iexact Hl
    iexact Hr

/-! ## The contents after the first region, read buffer by buffer -/

theorem W1_v0_2 (c : Dev nD) : W1 m c main_v0_2 = supCol m c := by
  unfold W1; exact Function.update_self ..
theorem W1_v0_1 (c : Dev nD) : W1 m c main_v0_1 = diagCol m c := by
  unfold W1
  rw [Function.update_of_ne (StableHlo.devRef_ne_of_ne (by decide) : (Proc.devRef .tc main_v0_1 : DevRef τ sig) ≠ Proc.devRef .tc main_v0_2)]
  exact Function.update_self ..
theorem W1_v0_0 (c : Dev nD) : W1 m c main_v0_0 = subCol m c := by
  unfold W1
  rw [Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1)]
  exact Function.update_self ..
/-- Every other buffer is as launched. -/
theorem W1_of_ne (c : Dev nD) (b : Ref sig .tc) (h0 : b ≠ main_v0_0) (h1 : b ≠ main_v0_1) (h2 : b ≠ main_v0_2) :
    W1 m c b = W0 m c b := by
  unfold W1
  rw [Function.update_of_ne (StableHlo.devRef_ne_of_ne h2 : (Proc.devRef .tc b : DevRef τ sig) ≠ Proc.devRef .tc main_v0_2),
    Function.update_of_ne (StableHlo.devRef_ne_of_ne h1 : (Proc.devRef .tc b : DevRef τ sig) ≠ Proc.devRef .tc main_v0_1),
    Function.update_of_ne (StableHlo.devRef_ne_of_ne h0 : (Proc.devRef .tc b : DevRef τ sig) ≠ Proc.devRef .tc main_v0_0)]

/-! ## The first region's arrays out of the unscoped buffers, and back -/

/-- ENTRY: the unscoped buffers at the launch contents are the first region's arrays — the weight matrix dealt at
    a half, a quarter and a quarter among its three windows — and the rest. -/
theorem arrays_in0 (c : Dev nD) :
    (unscopedBufs c (V0 m c) : sProp 𝕄)
      ⊢ iprop((dat0 (V0 m) c).arrays ((dat0 (V0 m) c).arrAt · 0) ∗ Pipeline.unscopedRest spec0 c (V0 m c)) := by
  rw [show (unscopedBufs c (V0 m c) : sProp 𝕄) = iprop(Pipeline.arrBufs spec0 c (V0 m c) ∗ Pipeline.unscopedRest spec0 c (V0 m c))
      from Pipeline.unscopedBufs_split₀ (Ix := Unit) (Name := ℕ) (U := UR sig nD τ) (Lvl := ℕ) cfgs 0 winFacts₀0.arr_unscoped c (V0 m c),
    arrBufs0_eq, arrays0_eq]
  iintro ⟨⟨Ha, H0, H1, H2⟩, Hrest⟩
  ihave Ha := (deal3 _).1 $$ Ha
  icases Ha with ⟨Hl, Hrl, Hrr⟩
  isplitr [Hrest]
  swap; · iexact Hrest
  isplitl [Hl]; · iexact Hl
  isplitl [Hrl]; · iexact Hrl
  isplitl [Hrr]; · iexact Hrr
  isplitl [H0]; · iexact H0
  isplitl [H1]; · iexact H1
  iexact H2

/-- EXIT: the first region's arrays as its write-backs leave them — the three fractions of the weight matrix still
    at the launch contents, the three columns whole — and the rest are the unscoped buffers at the contents after
    the region. -/
theorem arrays_out0 (c : Dev nD) :
    iprop((dat0 (V0 m) c).arrays ((dat0 (V0 m) c).arrAt · cfg0.N) ∗ Pipeline.unscopedRest spec0 c (V0 m c))
      ⊢ (unscopedBufs c (fun b => W1 m c b) : sProp 𝕄) := by
  rw [show (unscopedBufs c (fun b => W1 m c b) : sProp 𝕄)
        = iprop(Pipeline.arrBufs spec0 c (fun b => W1 m c b) ∗ Pipeline.unscopedRest spec0 c (fun b => W1 m c b))
      from Pipeline.unscopedBufs_split₀ (Ix := Unit) (Name := ℕ) (U := UR sig nD τ) (Lvl := ℕ) cfgs 0 winFacts₀0.arr_unscoped c (fun b => W1 m c b),
    arrBufs0_eq, arrays0_eq,
    show (Pipeline.unscopedRest spec0 c (fun b => W1 m c b) : sProp 𝕄) = Pipeline.unscopedRest spec0 c (V0 m c) from by
      unfold Pipeline.unscopedRest
      refine bigSep_congr fun b hb => ?_
      have hb' := (Finset.mem_sdiff.mp hb).2
      beta_reduce
      rw [show W1 m c b = V0 m c b from W1_of_ne m c b
        (fun e => hb' (Finset.mem_image.mpr ⟨3, Finset.mem_univ _, e.symm⟩))
        (fun e => hb' (Finset.mem_image.mpr ⟨4, Finset.mem_univ _, e.symm⟩))
        (fun e => hb' (Finset.mem_image.mpr ⟨5, Finset.mem_univ _, e.symm⟩))]]
  beta_reduce
  rw [show (dat0 (V0 m) c).arrAt 0 cfg0.N = V0 m c main_arg1 from ((dat0 (V0 m) c).arrAt_in 0 rfl _).trans (A_eq0 (V0 m) c 0),
    show (dat0 (V0 m) c).arrAt 1 cfg0.N = V0 m c main_arg1 from ((dat0 (V0 m) c).arrAt_in 1 rfl _).trans (A_eq0 (V0 m) c 1),
    show (dat0 (V0 m) c).arrAt 2 cfg0.N = V0 m c main_arg1 from ((dat0 (V0 m) c).arrAt_in 2 rfl _).trans (A_eq0 (V0 m) c 2),
    show W1 m c main_arg1 = V0 m c main_arg1 from W1_of_ne m c main_arg1 (by decide) (by decide) (by decide),
    W1_v0_0, W1_v0_1, W1_v0_2]
  iintro ⟨⟨Hl, Hrl, Hrr, H0, H1, H2⟩, Hrest⟩
  isplitr [Hrest]
  swap; · iexact Hrest
  isplitl [Hl Hrl Hrr]
  · iapply (deal3 _).2
    isplitl [Hl]; · iexact Hl
    isplitl [Hrl]; · iexact Hrl
    iexact Hrr
  isplitl [H0]; · iexact H0
  isplitl [H1]; · iexact H1
  iexact H2

/-! ## The contents after the second region, read buffer by buffer -/

theorem W3_v38 (c : Dev nD) : W3 m c main_v38 = result m c := by
  unfold W3; exact Function.update_self ..
theorem W3_of_ne (c : Dev nD) (b : Ref sig .tc) (h : b ≠ main_v38) : W3 m c b = W2 m c b := by
  unfold W3
  rw [Function.update_of_ne (StableHlo.devRef_ne_of_ne h : (Proc.devRef .tc b : DevRef τ sig) ≠ Proc.devRef .tc main_v38)]

/-- A buffer that no region's write-back and no host operation writes reaches the end as launched. -/
theorem W3_arg (c : Dev nD) (r : Ref sig .tc) (h38 : r ≠ main_v38) (hW : r ∉ hostOps1_W)
    (h0 : r ≠ main_v0_0) (h1 : r ≠ main_v0_1) (h2 : r ≠ main_v0_2) : W3 m c r = m ((c : Thread nD τ).loc r) :=
  (W3_of_ne m c r h38).trans <| (StableHlo.after_of_writes_sub hostOps1 _ hostOps1_writes hW).trans <| (W1_of_ne m c r h0 h1 h2).trans rfl

/-- The contents after each region read at the TensorCore's references. -/
abbrev V1 (c : Dev nD) (b : Ref sig .tc) : Buf (Elt F) ((c : Thread nD τ).loc b) := W1 m c b
abbrev V3 (c : Dev nD) (b : Ref sig .tc) : Buf (Elt F) ((c : Thread nD τ).loc b) := W3 m c b

/-- At the second region's exit each of its arrays holds what the pipeline leaves: the four inputs what they held at
    entry, the output the result; -/
theorem hF1 (c : Dev nD) : ∀ w : Fin cfg1.W, (dat1 (V2 m) c).arrAt w cfg1.N = V3 m c (Pipeline.arrRef spec1 w)
  | ⟨0, _⟩ => (((dat1 (V2 m) c).arrAt_in 0 rfl _).trans (A_eq1 (V2 m) c 0)).trans (W3_of_ne m c main_arg0 (by decide)).symm
  | ⟨1, _⟩ => (((dat1 (V2 m) c).arrAt_in 1 rfl _).trans (A_eq1 (V2 m) c 1)).trans (W3_of_ne m c main_v33 (by decide)).symm
  | ⟨2, _⟩ => (((dat1 (V2 m) c).arrAt_in 2 rfl _).trans (A_eq1 (V2 m) c 2)).trans (W3_of_ne m c main_v35 (by decide)).symm
  | ⟨3, _⟩ => (((dat1 (V2 m) c).arrAt_in 3 rfl _).trans (A_eq1 (V2 m) c 3)).trans (W3_of_ne m c main_v37 (by decide)).symm
  | ⟨4, _⟩ => (W3_v38 m c).symm
/-- and every other buffer what it held at entry. -/
theorem hrest1 (c : Dev nD) : ∀ b, b ∉ Finset.univ.image (Pipeline.arrRef spec1) → V3 m c b = V2 m c b :=
  fun b hb => W3_of_ne m c b fun e => hb (Finset.mem_image.mpr ⟨4, Finset.mem_univ _, e.symm⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
/-- The host operations as an item: over the unscoped buffers from the contents `W`, left at those contents after the
    operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- THE FIRST REGION over the thread state: entered from every unscoped buffer at the launch contents, left at the
    contents after it. Its arrays dealt out of the unscoped buffers and put back; the generator register into the
    pipeline's invariant and out; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := arrays_in0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_out0 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the contents after the host
    operations, left at the last contents. Its arrays, distinct buffers, split out of the unscoped buffers and put
    back at the exit contents; the generator register into the pipeline's invariant and out; nothing owed; no
    semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as items, and the launch -/

/-- The main function's three items in order: the first region, the host operations from the contents after it, the
    second region. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- The main function is the run of the items. -/
theorem main_run (c : Dev nD) : main (F := F) c = Pipeline.Seg.run (segs m) := (main_chain c).trans (by chain_rfl)

set_option backward.isDefEq.respectTransparency.types false in
/-- THE RUN, at any float instance. -/
theorem run : θ_run defs (onTc (τ := τ) (main (F := F))) ⟨m, fun _ => 0, ρ⟩ (fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v38 (by decide))).trans (W3_v38 m c),
        (h c _ (mem_uc main_arg0 (by decide))).trans (W3_arg m c main_arg0 (by decide) (by decide) (by decide) (by decide) (by decide)),
        (h c _ (mem_uc main_arg1 (by decide))).trans (W3_arg m c main_arg1 (by decide) (by decide) (by decide) (by decide) (by decide)),
        (h c _ (mem_uc main_arg2 (by decide))).trans (W3_arg m c main_arg2 (by decide) (by decide) (by decide) (by decide) (by decide))⟩)

end Cert.KernelIdeal.Hand

end
-- ==== Proof.Spec.lean ====
/-
  The function both programs compute, index by index on the extended reals.

  With `x` the 256×8192 input, `W` the 8192×8192 weight matrix and three coefficient vectors `cs`, `cd`, `cp` of
  length 8192, entry `(b, r)` of the result is

      x[b, r−1] · (cs[r] · W[r, r−1])  +  x[b, r] · (cd[r] · W[r, r])  +  x[b, r+1] · (cp[r] · W[r, r+1]),

  the column indices `r−1` and `r+1` taken around the end (modulo 8192), the sum associated to the left. Only three
  diagonals of `W` enter: the one below the main diagonal, the main one and the one above it, each closed around the
  corner of the matrix.
-/
import Idealize.ShloMosaic.PureOps.Ideal
import Idealize.ShloMosaic.Lib.ValueIdx

noncomputable section

namespace Cert.Spec

open Idealize.ShloMosaic Idealize.ShloMosaic.ValueIdx

abbrev SX : Shape := ⟨2, ![256, 8192]⟩
abbrev SW : Shape := ⟨2, ![8192, 8192]⟩
abbrev SV : Shape := ⟨1, ![8192]⟩

/-- The column before `r`, around the end: `r − 1` modulo 8192. -/
def prevCol (r : Fin 8192) : Fin 8192 := ⟨(r.val + 8191) % 8192, Nat.mod_lt _ (by decide)⟩
/-- The column after `r`, around the end: `r + 1` modulo 8192. -/
def nextCol (r : Fin 8192) : Fin 8192 := ⟨(r.val + 1) % 8192, Nat.mod_lt _ (by decide)⟩

theorem prevCol_val (r : Fin 8192) : (prevCol r).val = (r.val + 8191) % 8192 := rfl
theorem nextCol_val (r : Fin 8192) : (nextCol r).val = (r.val + 1) % 8192 := rfl

/-- The result: three neighbouring entries of a row of `x`, each times its coefficient times its entry of `W`. -/
def G (x : FVec Ideal SX .f32) (W : FVec Ideal SW .f32) (cs cd cp : FVec Ideal SV .f32) : FVec Ideal SX .f32 :=
  fun i =>
    let b : Fin 256 := i 0
    let r : Fin 8192 := i 1
    (x (ix2 b (prevCol r)) * (cs (ix1 r) * W (ix2 r (prevCol r))) + x (ix2 b r) * (cd (ix1 r) * W (ix2 r r)))
      + x (ix2 b (nextCol r)) * (cp (ix1 r) * W (ix2 r (nextCol r)))

theorem G_apply (x : FVec Ideal SX .f32) (W : FVec Ideal SW .f32) (cs cd cp : FVec Ideal SV .f32) (b : Fin 256) (r : Fin 8192) :
    G x W cs cd cp (ix2 b r)
      = (x (ix2 b (prevCol r)) * (cs (ix1 r) * W (ix2 r (prevCol r))) + x (ix2 b r) * (cd (ix1 r) * W (ix2 r r)))
        + x (ix2 b (nextCol r)) * (cp (ix1 r) * W (ix2 r (nextCol r))) := rfl

/-! ## The coefficients

Both programs build the three coefficient vectors from the bias `β` alike: with `c = 1 + β` entrywise, the powers `c`,
`c²` = `c·c` and `c³` = `c²·c`, and each coefficient vector one of the powers with its first and its last entry
overwritten by those entries of the other two. The side conditions of the operations used are facts of the shapes
alone; they are bundled so that the same term is spelt over either program's own facts. -/

abbrev S_ : Shape := ⟨0, ![]⟩
abbrev S1 : Shape := ⟨1, ![1]⟩

/-- The shape facts the coefficient chain's operations cite. -/
structure CoefFacts : Prop where
  hbv : S_.BroadcastsInDim SV (![] : Fin 0 → Fin SV.rank)
  hs0 : SV.Slices ![0] S1
  hs1 : SV.Slices ![8191] S1
  hc : S1.ShapeCasts S_
  hb1 : S_.BroadcastsInDim S1 (![] : Fin 0 → Fin S1.rank)
  wf : ScatterDims.WF SV S1 S_ [] [0] [0] 0

variable (h : CoefFacts)

/-- The dimension numbers of "overwrite one entry of a vector". -/
def setDims : ScatterDims SV S1 S_ where
  updateWindowDims := []
  insertedWindowDims := [0]
  scatterDimsToOperandDims := [0]
  indexVectorDim := 0
  wf := h.wf

/-- `1 + β`. -/
def c1 (β : FVec Ideal SV .f32) : FVec Ideal SV .f32 :=
  addf (broadcastInDim SV ![] h.hbv (constant (F := Ideal) S_ .f32 0x3F800000#32)) β
/-- `(1 + β)²`. -/
def c2 (β : FVec Ideal SV .f32) : FVec Ideal SV .f32 := mulf (c1 h β) (c1 h β)
/-- `(1 + β)³`. -/
def c3 (β : FVec Ideal SV .f32) : FVec Ideal SV .f32 := mulf (c2 h β) (c1 h β)

/-- `P` with its first entry overwritten by `Q`'s first and then its last entry by `R`'s last. -/
def ends (P Q R : FVec Ideal SV .f32) : FVec Ideal SV .f32 :=
  Host.scatter (setDims h) (fun _ b => b)
    (Host.scatter (setDims h) (fun _ b => b) P
      (broadcastInDim S1 ![] h.hb1 (constantI S_ 32 0#32))
      (shapeCast S_ (extractStridedSlice S1 ![0] Q h.hs0) h.hc))
    (broadcastInDim S1 ![] h.hb1 (constantI S_ 32 8191#32))
    (shapeCast S_ (extractStridedSlice S1 ![8191] R h.hs1) h.hc)

/-- The coefficient of the entry to the left: `c³`, but `c` at the first column and `c²` at the last. -/
def cs (β : FVec Ideal SV .f32) : FVec Ideal SV .f32 := ends h (c3 h β) (c1 h β) (c2 h β)
/-- The coefficient of the entry itself: `c²`, but `c³` at the first column and `c` at the last. -/
def cd (β : FVec Ideal SV .f32) : FVec Ideal SV .f32 := ends h (c2 h β) (c3 h β) (c1 h β)
/-- The coefficient of the entry to the right: `c`, but `c²` at the first column and `c³` at the last. -/
def cp (β : FVec Ideal SV .f32) : FVec Ideal SV .f32 := ends h (c1 h β) (c2 h β) (c3 h β)

/-- The whole result from the three arguments. -/
def out (x : FVec Ideal SX .f32) (W : FVec Ideal SW .f32) (β : FVec Ideal SV .f32) : FVec Ideal SX .f32 :=
  G x W (cs h β) (cd h β) (cp h β)

end Cert.Spec

end
-- ==== Proof.KI.DiagValue.lean ====
/-
  What the first kernel region leaves in its three output arrays, at the ideal values, as functions of the weight
  matrix `W` it is entered with: row `R` of the first column is `W[R, R−1]`, of the second `W[R, R]`, of the third
  `W[R, R+1]`, the column indices around the end (modulo 8192). A grid point `t` writes rows `256·t … 256·t + 255`; inside a
  block the body picks one entry of each row by a mask and a sum along the row (the other 255 summands are zero), and
  the first row's left neighbour and the last row's right neighbour come from the neighbouring blocks.
-/
import proofs.«178726_j37838661878516_1_alg».proof.Proof.KI.Region0
import proofs.«178726_j37838661878516_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (prevCol nextCol)

/-- The entries just left of the diagonal, as a column. -/
def subColFn (W : FVec Ideal S8192x8192 .f32) : FVec Ideal S8192x1 .f32 :=
  fun i => let R : Fin 8192 := i 0; W (ix2 R (prevCol R))
/-- The diagonal, as a column. -/
def diagColFn (W : FVec Ideal S8192x8192 .f32) : FVec Ideal S8192x1 .f32 :=
  fun i => let R : Fin 8192 := i 0; W (ix2 R R)
/-- The entries just right of the diagonal, as a column. -/
def supColFn (W : FVec Ideal S8192x8192 .f32) : FVec Ideal S8192x1 .f32 :=
  fun i => let R : Fin 8192 := i 0; W (ix2 R (nextCol R))

/-! ## Words: a mask bit says an equation of coordinates -/

/-- Selecting by a one-bit word that says a proposition. -/
private theorem select_of_iff {α : Type} {c : BitVec 1} {p : Prop} [Decidable p] (h : c = 1#1 ↔ p) (a b : α) :
    Scalar.select c a b = if p then a else b := by
  unfold Scalar.select; exact if_congr h rfl rfl

/-- Two coordinates below 256 are equal as 32-bit words exactly when they are equal. -/
private theorem word_eq_iff {a b : Nat} (ha : a < 256) (hb : b < 256) : BitVec.ofNat 32 a = BitVec.ofNat 32 b ↔ a = b := by
  constructor
  · intro h
    have := congrArg BitVec.toNat h
    rw [BitVec.toNat_ofNat, BitVec.toNat_ofNat] at this
    omega
  · rintro rfl; rfl

/-- `a = b − 1` as words exactly when `a + 1 = b`: at `b = 0` the word `b − 1` is `2³² − 1`, no coordinate. -/
private theorem word_eq_pred_iff {a b : Nat} (ha : a < 256) (hb : b < 256) :
    BitVec.ofNat 32 a = BitVec.ofNat 32 b - 1#32 ↔ a + 1 = b := by
  constructor
  · intro h
    have := congrArg BitVec.toNat h
    rw [BitVec.toNat_sub, BitVec.toNat_ofNat, BitVec.toNat_ofNat, BitVec.toNat_ofNat] at this
    omega
  · rintro rfl
    apply BitVec.eq_of_toNat_eq
    rw [BitVec.toNat_sub, BitVec.toNat_ofNat, BitVec.toNat_ofNat, BitVec.toNat_ofNat]
    omega

/-- `a = b + 1` as words exactly when it is so of the numbers. -/
private theorem word_eq_succ_iff {a b : Nat} (ha : a < 256) (hb : b < 256) :
    BitVec.ofNat 32 a = BitVec.ofNat 32 b + 1#32 ↔ a = b + 1 := by
  constructor
  · intro h
    have := congrArg BitVec.toNat h
    rw [BitVec.toNat_add, BitVec.toNat_ofNat, BitVec.toNat_ofNat, BitVec.toNat_ofNat] at this
    omega
  · rintro rfl
    apply BitVec.eq_of_toNat_eq
    rw [BitVec.toNat_add, BitVec.toNat_ofNat, BitVec.toNat_ofNat, BitVec.toNat_ofNat]
    omega

/-! ## Sums along a row with at most one non-zero summand -/

private theorem sum_mask_none (p : Fin 256 → Prop) [DecidablePred p] (f : Fin 256 → EReal) (h : ∀ k, ¬p k) :
    ∑ k : Fin 256, (if p k then f k else 0) = 0 :=
  Finset.sum_eq_zero fun k _ => if_neg (h k)

private theorem sum_mask_one (p : Fin 256 → Prop) [DecidablePred p] (f : Fin 256 → EReal) (c : Fin 256) (hc : p c)
    (h : ∀ k, p k → k = c) : ∑ k : Fin 256, (if p k then f k else 0) = f c :=
  (Finset.sum_eq_single c (fun k _ hk => if_neg fun hp => hk (h k hp)) (fun hn => absurd (Finset.mem_univ c) hn)).trans
    (if_pos hc)

/-! ## The layout operations of the body at an index -/

/-- A vector of 256 entries cast to a column, read at row `r`. -/
private theorem col_cast (v : S256.Idx → EReal) (r : Fin 256) :
    shapeCast S256x1 v shapeCasts_S256_S256x1 (ix2 r (0 : Fin 1)) = v (ix1 r) := by
  refine shapeCast_apply v shapeCasts_S256_S256x1 (ix2 r (0 : Fin 1)) (ix1 r) ?_
  rw [Shape.rowMajor_val_one, Shape.rowMajor_val_two]
  show r.val = r.val * 1 + 0
  omega

/-- The index of a block over row `r` with column `k` inserted. -/
private theorem lift_row (r : Fin 256) (k : Fin 256) : reduces_S256x256_S256.lift (ix1 r) k = ix2 r k := by
  funext a
  match a with
  | ⟨0, _⟩ => exact Fin.ext rfl
  | ⟨1, _⟩ => exact Fin.ext rfl

/-- The sum along row `r` of a 256×256 block. -/
private theorem row_sum (src : FVec Ideal S256x256 .f32) (hφ : FKind.Formats .f32)
    (hacc : (0x00000000#32 : BitVec 32) = FKind.add.neutral .f32 hφ) (r : Fin 256) :
    multiReduction .add [1] S256 src 0x00000000#32 reduces_S256x256_S256 hφ hacc (ix1 r) = ∑ k : Fin 256, src (ix2 r k) := by
  refine (Ideal.multiReduction_add_single src 0x00000000#32 reduces_S256x256_S256 hφ hacc (ix1 r)).trans ?_
  exact Finset.sum_congr rfl fun k _ => congrArg src (lift_row r k)

/-- The two coordinate vectors of a block at an index: the row's word and the column's word. -/
private theorem iota0_at (r k : Fin 256) : iota .tc S256x256 32 [0] iota_S256x256_d0_w32 (ix2 r k) = BitVec.ofNat 32 r.val :=
  iota_single_apply .tc S256x256 32 0 iota_S256x256_d0_w32 (ix2 r k)
private theorem iota1_at (r k : Fin 256) : iota .tc S256x256 32 [1] iota_S256x256_d1_w32 (ix2 r k) = BitVec.ofNat 32 k.val :=
  iota_single_apply .tc S256x256 32 1 iota_S256x256_d1_w32 (ix2 r k)

/-- A block masked by a one-bit vector, zero elsewhere, at an index whose mask bit says `p`. -/
private theorem masked_at (m : IVec S256x256 1) (x : Vec Ideal S256x256 .f32) (r k : Fin 256) (p : Prop) [Decidable p]
    (h : m (ix2 r k) = 1#1 ↔ p) :
    select m x (broadcast S256x256 (Scalar.ofBits (F := Ideal) .f32 0x00000000#32)) (ix2 r k) = if p then x (ix2 r k) else 0 := by
  show Scalar.select (m (ix2 r k)) (x (ix2 r k)) (Ideal.ofBits .f32 0x00000000#32) = _
  rw [select_of_iff h, Ideal.ofBits_zero_f32]

/-- A row sum kept as a column, at row `r`. -/
private theorem col_sum_at (u : FVec Ideal S256x256 .f32) (hφ : FKind.Formats .f32)
    (hacc : (0x00000000#32 : BitVec 32) = FKind.add.neutral .f32 hφ) (r : Fin 256) :
    shapeCast S256x1 (multiReduction .add [1] S256 u 0x00000000#32 reduces_S256x256_S256 hφ hacc) shapeCasts_S256_S256x1 (ix2 r (0 : Fin 1))
      = ∑ k : Fin 256, u (ix2 r k) :=
  (col_cast _ r).trans (row_sum u hφ hacc r)

/-- A column plus such a column, at row `r`. -/
private theorem addf_col_at (a : FVec Ideal S256x1 .f32) (u : FVec Ideal S256x256 .f32) (hφ : FKind.Formats .f32)
    (hacc : (0x00000000#32 : BitVec 32) = FKind.add.neutral .f32 hφ) (r : Fin 256) :
    addf a (shapeCast S256x1 (multiReduction .add [1] S256 u 0x00000000#32 reduces_S256x256_S256 hφ hacc) shapeCasts_S256_S256x1) (ix2 r (0 : Fin 1))
      = a (ix2 r (0 : Fin 1)) + ∑ k : Fin 256, u (ix2 r k) :=
  congrArg (a (ix2 r (0 : Fin 1)) + ·) (col_sum_at u hφ hacc r)

/-! ## The masks of the body at an index -/

/-- "Row = column": the diagonal's mask. -/
private theorem diag_mask_iff (r k : Fin 256) :
    cmpi .eq (iota .tc S256x256 32 [0] iota_S256x256_d0_w32) (iota .tc S256x256 32 [1] iota_S256x256_d1_w32) (ix2 r k) = 1#1 ↔ k = r := by
  show IntOp.cmpi .eq (iota .tc S256x256 32 [0] iota_S256x256_d0_w32 (ix2 r k)) (iota .tc S256x256 32 [1] iota_S256x256_d1_w32 (ix2 r k)) = 1#1 ↔ _
  rw [iota0_at, iota1_at, IntOp.cmpi_eq, word_eq_iff r.isLt k.isLt]
  exact ⟨fun h => Fin.ext h.symm, fun h => by rw [h]⟩

/-- "Column = row − 1": the mask of the entries left of the diagonal; the first row has none. -/
private theorem sub_mask_iff (r k : Fin 256) :
    cmpi .eq (iota .tc S256x256 32 [1] iota_S256x256_d1_w32)
      (subi (iota .tc S256x256 32 [0] iota_S256x256_d0_w32) (broadcast S256x256 1#32)) (ix2 r k) = 1#1 ↔ k.val + 1 = r.val := by
  show IntOp.cmpi .eq (iota .tc S256x256 32 [1] iota_S256x256_d1_w32 (ix2 r k))
    (IntOp.subi (iota .tc S256x256 32 [0] iota_S256x256_d0_w32 (ix2 r k)) 1#32) = 1#1 ↔ _
  rw [iota0_at, iota1_at, IntOp.cmpi_eq]
  exact word_eq_pred_iff k.isLt r.isLt

/-- "Column = row + 1": the mask of the entries right of the diagonal; the last row has none. -/
private theorem sup_mask_iff (r k : Fin 256) :
    cmpi .eq (iota .tc S256x256 32 [1] iota_S256x256_d1_w32)
      (addi (iota .tc S256x256 32 [0] iota_S256x256_d0_w32) (broadcast S256x256 1#32)) (ix2 r k) = 1#1 ↔ k.val = r.val + 1 := by
  show IntOp.cmpi .eq (iota .tc S256x256 32 [1] iota_S256x256_d1_w32 (ix2 r k))
    (IntOp.addi (iota .tc S256x256 32 [0] iota_S256x256_d0_w32 (ix2 r k)) 1#32) = 1#1 ↔ _
  rw [iota0_at, iota1_at, IntOp.cmpi_eq]
  exact word_eq_succ_iff k.isLt r.isLt

/-- "Row = `a` and column = `b`": the mask of one corner entry. -/
private theorem corner_mask_iff (a b : Nat) (ha : a < 256) (hb : b < 256) (r k : Fin 256) :
    andi (cmpi .eq (iota .tc S256x256 32 [0] iota_S256x256_d0_w32) (broadcast S256x256 (BitVec.ofNat 32 a)))
      (cmpi .eq (iota .tc S256x256 32 [1] iota_S256x256_d1_w32) (broadcast S256x256 (BitVec.ofNat 32 b))) (ix2 r k) = 1#1
      ↔ r.val = a ∧ k.val = b := by
  show IntOp.andi (IntOp.cmpi .eq (iota .tc S256x256 32 [0] iota_S256x256_d0_w32 (ix2 r k)) (BitVec.ofNat 32 a))
    (IntOp.cmpi .eq (iota .tc S256x256 32 [1] iota_S256x256_d1_w32 (ix2 r k)) (BitVec.ofNat 32 b)) = 1#1 ↔ _
  rw [iota0_at, iota1_at, IntOp.andi_eq_one, IntOp.cmpi_eq, IntOp.cmpi_eq]
  exact and_congr (word_eq_iff r.isLt ha) (word_eq_iff k.isLt hb)

/-! ## The body's three columns at a row -/

/-- The diagonal's column: row `r` is the diagonal block's entry `(r, r)`. -/
private theorem pay2_at (xm : Vec Ideal S256x256 .f32) (r : Fin 256) :
    k0_pay2 xm (ix2 r (0 : Fin 1)) = xm (ix2 r r) := by
  unfold k0_pay2
  refine (col_sum_at _ _ _ r).trans ?_
  refine (Finset.sum_congr rfl fun k _ => masked_at _ xm r k (k = r) (diag_mask_iff r k)).trans ?_
  exact sum_mask_one (fun k => k = r) (fun k => xm (ix2 r k)) r rfl fun k h => h

/-- The column left of the diagonal as two row sums: the diagonal block under "column = row − 1" and the left
    neighbour under "row 0, column 255". -/
private theorem pay4_sums (xm xl : Vec Ideal S256x256 .f32) (r : Fin 256) :
    k0_pay4 xm xl (ix2 r (0 : Fin 1))
      = (∑ k : Fin 256, if k.val + 1 = r.val then xm (ix2 r k) else 0)
        + ∑ k : Fin 256, if r.val = 0 ∧ k.val = 255 then xl (ix2 r k) else 0 := by
  unfold k0_pay4
  refine (addf_col_at _ _ _ _ r).trans ?_
  refine congrArg₂ (· + ·) ((col_sum_at _ _ _ r).trans ?_) ?_
  · exact Finset.sum_congr rfl fun k _ => masked_at _ xm r k (k.val + 1 = r.val) (sub_mask_iff r k)
  · exact Finset.sum_congr rfl fun k _ => masked_at _ xl r k (r.val = 0 ∧ k.val = 255) (corner_mask_iff 0 255 (by decide) (by decide) r k)

/-- Below the first row it is the diagonal block's entry `(r, r − 1)`. -/
private theorem pay4_at_inner (xm xl : Vec Ideal S256x256 .f32) (r k : Fin 256) (hk : k.val + 1 = r.val) :
    k0_pay4 xm xl (ix2 r (0 : Fin 1)) = xm (ix2 r k) := by
  rw [pay4_sums, sum_mask_one (fun k' : Fin 256 => k'.val + 1 = r.val) (fun k' => xm (ix2 r k')) k hk (fun k' h => Fin.ext (by omega)),
    sum_mask_none (fun k' : Fin 256 => r.val = 0 ∧ k'.val = 255) (fun k' => xl (ix2 r k')) (fun k' h => by omega), add_zero]

/-- At the first row it is the left neighbour's entry `(0, 255)`. -/
private theorem pay4_at_first (xm xl : Vec Ideal S256x256 .f32) (r : Fin 256) (hr : r.val = 0) :
    k0_pay4 xm xl (ix2 r (0 : Fin 1)) = xl (ix2 r (255 : Fin 256)) := by
  rw [pay4_sums, sum_mask_none (fun k' : Fin 256 => k'.val + 1 = r.val) (fun k' => xm (ix2 r k')) (fun k' h => by omega),
    sum_mask_one (fun k' : Fin 256 => r.val = 0 ∧ k'.val = 255) (fun k' => xl (ix2 r k')) (255 : Fin 256) ⟨hr, rfl⟩
      (fun k' h => Fin.ext h.2), zero_add]

/-- The column right of the diagonal as two row sums: the diagonal block under "column = row + 1" and the right
    neighbour under "row 255, column 0". -/
private theorem pay1_sums (xm xr : Vec Ideal S256x256 .f32) (r : Fin 256) :
    k0_pay1 (k0_pay3 xm) xr k0_pay5 (ix2 r (0 : Fin 1))
      = (∑ k : Fin 256, if k.val = r.val + 1 then xm (ix2 r k) else 0)
        + ∑ k : Fin 256, if r.val = 255 ∧ k.val = 0 then xr (ix2 r k) else 0 := by
  unfold k0_pay1
  refine (addf_col_at _ _ _ _ r).trans ?_
  refine congrArg₂ (· + ·) ?_ ?_
  · unfold k0_pay3
    refine (col_sum_at _ _ _ r).trans ?_
    exact Finset.sum_congr rfl fun k _ => masked_at _ xm r k (k.val = r.val + 1) (sup_mask_iff r k)
  · unfold k0_pay5
    exact Finset.sum_congr rfl fun k _ => masked_at _ xr r k (r.val = 255 ∧ k.val = 0) (corner_mask_iff 255 0 (by decide) (by decide) r k)

/-- Above the last row it is the diagonal block's entry `(r, r + 1)`. -/
private theorem pay1_at_inner (xm xr : Vec Ideal S256x256 .f32) (r k : Fin 256) (hk : k.val = r.val + 1) :
    k0_pay1 (k0_pay3 xm) xr k0_pay5 (ix2 r (0 : Fin 1)) = xm (ix2 r k) := by
  rw [pay1_sums, sum_mask_one (fun k' : Fin 256 => k'.val = r.val + 1) (fun k' => xm (ix2 r k')) k hk (fun k' h => Fin.ext (by omega)),
    sum_mask_none (fun k' : Fin 256 => r.val = 255 ∧ k'.val = 0) (fun k' => xr (ix2 r k')) (fun k' h => by omega), add_zero]

/-- At the last row it is the right neighbour's entry `(255, 0)`. -/
private theorem pay1_at_last (xm xr : Vec Ideal S256x256 .f32) (r : Fin 256) (hr : r.val = 255) :
    k0_pay1 (k0_pay3 xm) xr k0_pay5 (ix2 r (0 : Fin 1)) = xr (ix2 r (0 : Fin 256)) := by
  rw [pay1_sums, sum_mask_none (fun k' : Fin 256 => k'.val = r.val + 1) (fun k' => xm (ix2 r k')) (fun k' h => by have := k'.isLt; omega),
    sum_mask_one (fun k' : Fin 256 => r.val = 255 ∧ k'.val = 0) (fun k' => xr (ix2 r k')) (0 : Fin 256) ⟨hr, rfl⟩
      (fun k' h => Fin.ext h.2), zero_add]

/-! ## From blocks to the arrays -/

variable (V : (c : Dev nD) → (b : Ref sig .tc) → Buf (Elt Ideal) ((c : Thread nD τ).loc b))

private theorem hz : (![0, 0] : Fin 2 → Nat) = fun _ => 0 := funext fun a => by fin_cases a <;> rfl

/-- The block indices at grid point `t`: every window's block row is `t`; the three windows of the matrix take the block
    columns `t − 1`, `t`, `t + 1` modulo 32, the three output windows the one block column there is. -/
private theorem idx_facts : ∀ t : Fin cfg0.N,
    win0_0.index t (0 : Fin 2) = t.val ∧ win0_0.index t (1 : Fin 2) = (t.val + 31) % 32
    ∧ win0_1.index t (0 : Fin 2) = t.val ∧ win0_1.index t (1 : Fin 2) = t.val
    ∧ win0_2.index t (0 : Fin 2) = t.val ∧ win0_2.index t (1 : Fin 2) = (t.val + 1) % 32
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

private theorem point_lt (t : Fin cfg0.N) : t.val < 32 := lt_of_lt_of_eq t.isLt N_0

/-- The left neighbour's block at point `t`, entry `y`: the matrix at row `256·t + y₀`, column `256·((t + 31) mod 32) + y₁`. -/
private theorem iblk0_0_at (c : Dev nD) (t : Fin cfg0.N) (y : S256x256.Idx) (i : S8192x8192.Idx)
    (h0 : (i 0).val = 256 * t.val + (y 0).val) (h1 : (i 1).val = 256 * ((t.val + 31) % 32) + (y 1).val) :
    (iblk0 V c 0 t : Vec Ideal S256x256 .f32) y = (V c main_arg1 : S8192x8192.Idx → EReal) i := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 256 + 1 * (y 0).val = (i 0).val; rw [e0, h0]; omega
  | ⟨1, _⟩ => show win0_0.index t 1 * 256 + 1 * (y 1).val = (i 1).val; rw [e1, h1]; omega

/-- The diagonal block at point `t`, entry `y`: the matrix at row `256·t + y₀`, column `256·t + y₁`. -/
private theorem iblk0_1_at (c : Dev nD) (t : Fin cfg0.N) (y : S256x256.Idx) (i : S8192x8192.Idx)
    (h0 : (i 0).val = 256 * t.val + (y 0).val) (h1 : (i 1).val = 256 * t.val + (y 1).val) :
    (iblk0 V c 1 t : Vec Ideal S256x256 .f32) y = (V c main_arg1 : S8192x8192.Idx → EReal) i := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t 0 * 256 + 1 * (y 0).val = (i 0).val; rw [e0, h0]; omega
  | ⟨1, _⟩ => show win0_1.index t 1 * 256 + 1 * (y 1).val = (i 1).val; rw [e1, h1]; omega

/-- The right neighbour's block at point `t`, entry `y`: the matrix at row `256·t + y₀`, column `256·((t + 1) mod 32) + y₁`. -/
private theorem iblk0_2_at (c : Dev nD) (t : Fin cfg0.N) (y : S256x256.Idx) (i : S8192x8192.Idx)
    (h0 : (i 0).val = 256 * t.val + (y 0).val) (h1 : (i 1).val = 256 * ((t.val + 1) % 32) + (y 1).val) :
    (iblk0 V c 2 t : Vec Ideal S256x256 .f32) y = (V c main_arg1 : S8192x8192.Idx → EReal) i := by
  obtain ⟨-, -, -, -, e0, e1, -⟩ := idx_facts t
  unfold iblk0
  rw [View.read_apply]
  show V c main_arg1 _ = V c main_arg1 _
  congr 1
  funext a
  apply Fin.ext
  match a with
  | ⟨0, _⟩ => show win0_2.index t 0 * 256 + 1 * (y 0).val = (i 0).val; rw [e0, h0]; omega
  | ⟨1, _⟩ => show win0_2.index t 1 * 256 + 1 * (y 1).val = (i 1).val; rw [e1, h1]; omega

/-- The neighbouring columns of row `256·t + r`, inside the diagonal block and around its edges. -/
private theorem prevCol_at_first {R : Fin 8192} {t r : Nat} (ht : t < 32) (hR : R.val = 256 * t + r) (hr : r = 0) :
    (prevCol R).val = 256 * ((t + 31) % 32) + 255 := by
  rw [Cert.Spec.prevCol_val, hR]; omega
private theorem prevCol_at_inner {R : Fin 8192} {t r : Nat} (ht : t < 32) (hR : R.val = 256 * t + r) (hr : ¬r = 0) (hr' : r < 256) :
    (prevCol R).val = 256 * t + (r - 1) := by
  rw [Cert.Spec.prevCol_val, hR]; omega
private theorem nextCol_at_last {R : Fin 8192} {t r : Nat} (ht : t < 32) (hR : R.val = 256 * t + r) (hr : r = 255) :
    (nextCol R).val = 256 * ((t + 1) % 32) + 0 := by
  rw [Cert.Spec.nextCol_val, hR]; omega
private theorem nextCol_at_inner {R : Fin 8192} {t r : Nat} (ht : t < 32) (hR : R.val = 256 * t + r) (hr : ¬r = 255) (hr' : r < 256) :
    (nextCol R).val = 256 * t + (r + 1) := by
  rw [Cert.Spec.nextCol_val, hR]; omega

/-- What point `t` writes back to the first column is rows `256·t … 256·t + 255` of the entries left of the diagonal:
    inside the diagonal block below its first row, and the left neighbour's last column at its first row (for `t = 0`
    that neighbour is the last block of the block row, column 8191). -/
private theorem flushed3_eq (c : Dev nD) (t : Fin cfg0.N) :
    (dat0 V c).flushed 3 t = ((cfg0.win 3).blk t).view.read (Elt Ideal) (subColFn (V c main_arg1)) := by
  show (cfg0.win 3).cut (grid0.coords t) ((dat0 V c).after 3 t) = _
  rw [after0_3]
  unfold out0_3
  rw [View.canon_unit_zero hz]
  simp only [View.ld_unit_zero (S := S256x256) hz]
  obtain ⟨-, -, -, -, -, -, e0, e1, -⟩ := idx_facts t
  have ht := point_lt t
  funext j
  obtain ⟨r, q, rfl⟩ : ∃ (r : Fin 256) (q : Fin 1), j = ix2 r q := ⟨j 0, j 1, eq_ix2 j⟩
  obtain rfl : q = 0 := Subsingleton.elim _ _
  show k0_pay4 (iblk0 V c 1 t) (iblk0 V c 0 t) (ix2 r (0 : Fin 1)) = subColFn (V c main_arg1) (((cfg0.win 3).blk t).view.emb (ix2 r (0 : Fin 1)))
  have hR : ((((cfg0.win 3).blk t).view.emb (ix2 r (0 : Fin 1))) 0).val = 256 * t.val + r.val := by
    show win0_3.index t 0 * 256 + 1 * r.val = _
    rw [e0]; omega
  have hr := r.isLt
  unfold subColFn
  by_cases h : r.val = 0
  · refine (pay4_at_first (iblk0 V c 1 t) (iblk0 V c 0 t) r h).trans ?_
    refine iblk0_0_at V c t (ix2 r (255 : Fin 256)) _ hR ?_
    exact prevCol_at_first ht hR h
  · refine (pay4_at_inner (iblk0 V c 1 t) (iblk0 V c 0 t) r ⟨r.val - 1, by omega⟩ (by show r.val - 1 + 1 = r.val; omega)).trans ?_
    refine iblk0_1_at V c t (ix2 r ⟨r.val - 1, by omega⟩) _ hR ?_
    exact prevCol_at_inner ht hR h hr

private theorem mem_blk3 (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v0_0).slice (win0_3.rect t)).set ↔ _
  rw [View.set_slice_whole, Rect.mem_set_unit]
  exact Iff.rfl

private theorem cover3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ : ∃ t : Fin cfg0.N, t.val = (i 0).val / 256 := ⟨⟨(i 0).val / 256, by rw [show cfg0.N = 32 from N_0]; omega⟩, rfl⟩
  obtain ⟨-, -, -, -, -, -, e0, e1, -⟩ := idx_facts t
  refine ⟨t, flush0_3 t, ?_⟩
  rw [mem_blk3]
  intro a
  match a with
  | ⟨0, _⟩ => show win0_3.index t 0 * 256 ≤ (i 0).val ∧ (i 0).val < win0_3.index t 0 * 256 + 256; rw [e0, ht]; omega
  | ⟨1, _⟩ => show win0_3.index t 1 * 1 ≤ (i 1).val ∧ (i 1).val < win0_3.index t 1 * 1 + 1; rw [e1]; omega

/-- What point `t` writes back to the diagonal's column is rows `256·t … 256·t + 255` of the diagonal. -/
private theorem flushed4_eq (c : Dev nD) (t : Fin cfg0.N) :
    (dat0 V c).flushed 4 t = ((cfg0.win 4).blk t).view.read (Elt Ideal) (diagColFn (V c main_arg1)) := by
  show (cfg0.win 4).cut (grid0.coords t) ((dat0 V c).after 4 t) = _
  rw [after0_4]
  unfold out0_4
  rw [View.canon_unit_zero hz]
  simp only [View.ld_unit_zero (S := S256x256) hz]
  obtain ⟨-, -, -, -, -, -, -, -, e0, e1, -⟩ := idx_facts t
  funext j
  obtain ⟨r, q, rfl⟩ : ∃ (r : Fin 256) (q : Fin 1), j = ix2 r q := ⟨j 0, j 1, eq_ix2 j⟩
  obtain rfl : q = 0 := Subsingleton.elim _ _
  show k0_pay2 (iblk0 V c 1 t) (ix2 r (0 : Fin 1)) = diagColFn (V c main_arg1) (((cfg0.win 4).blk t).view.emb (ix2 r (0 : Fin 1)))
  refine (pay2_at (iblk0 V c 1 t) r).trans ?_
  have hR : ((((cfg0.win 4).blk t).view.emb (ix2 r (0 : Fin 1))) 0).val = 256 * t.val + r.val := by
    show win0_4.index t 0 * 256 + 1 * r.val = _
    rw [e0]; omega
  unfold diagColFn
  exact iblk0_1_at V c t (ix2 r r) _ hR hR

/-- An index of a column is in point `t`'s block iff each coordinate is in the block's range on its axis. -/
private theorem mem_blk4 (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v0_1).slice (win0_4.rect t)).set ↔ _
  rw [View.set_slice_whole, Rect.mem_set_unit]
  exact Iff.rfl

/-- Row `R` of the column is written back by point `R / 256`. -/
private theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, ht⟩ : ∃ t : Fin cfg0.N, t.val = (i 0).val / 256 := ⟨⟨(i 0).val / 256, by rw [show cfg0.N = 32 from N_0]; omega⟩, rfl⟩
  obtain ⟨-, -, -, -, -, -, -, -, e0, e1, -⟩ := idx_facts t
  refine ⟨t, flush0_4 t, ?_⟩
  rw [mem_blk4]
  intro a
  match a with
  | ⟨0, _⟩ => show win0_4.index t 0 * 256 ≤ (i 0).val ∧ (i 0).val < win0_4.index t 0 * 256 + 256; rw [e0, ht]; omega
  | ⟨1, _⟩ => show win0_4.index t 1 * 1 ≤ (i 1).val ∧ (i 1).val < win0_4.index t 1 * 1 + 1; rw [e1]; omega

/-- What point `t` writes back to the third column is rows `256·t … 256·t + 255` of the entries right of the diagonal:
    inside the diagonal block above its last row, and the right neighbour's first column at its last row (for `t = 31`
    that neighbour is the first block of the block row, column 0). -/
private theorem flushed5_eq (c : Dev nD) (t : Fin cfg0.N) :
    (dat0 V c).flushed 5 t = ((cfg0.win 5).blk t).view.read (Elt Ideal) (supColFn (V c main_arg1)) := by
  show (cfg0.win 5).cut (grid0.coords t) ((dat0 V c).after 5 t) = _
  rw [after0_5]
  unfold out0_5
  rw [View.canon_unit_zero hz]
  simp only [View.ld_unit_zero (S := S256x256) hz]
  obtain ⟨-, -, -, -, -, -, -, -, -, -, e0, e1⟩ := idx_facts t
  have ht := point_lt t
  funext j
  obtain ⟨r, q, rfl⟩ : ∃ (r : Fin 256) (q : Fin 1), j = ix2 r q := ⟨j 0, j 1, eq_ix2 j⟩
  obtain rfl : q = 0 := Subsingleton.elim _ _
  show k0_pay1 (k0_pay3 (iblk0 V c 1 t)) (iblk0 V c 2 t) k0_pay5 (ix2 r (0 : Fin 1)) = supColFn (V c main_arg1) (((cfg0.win 5).blk t).view.emb (ix2 r (0 : Fin 1)))
  have hR : ((((cfg0.win 5).blk t).view.emb (ix2 r (0 : Fin 1))) 0).val = 256 * t.val + r.val := by
    show win0_5.index t 0 * 256 + 1 * r.val = _
    rw [e0]; omega
  have hr := r.isLt
  unfold supColFn
  by_cases h : r.val = 255
  · refine (pay1_at_last (iblk0 V c 1 t) (iblk0 V c 2 t) r h).trans ?_
    refine iblk0_2_at V c t (ix2 r (0 : Fin 256)) _ hR ?_
    exact nextCol_at_last ht hR h
  · refine (pay1_at_inner (iblk0 V c 1 t) (iblk0 V c 2 t) r ⟨r.val + 1, by omega⟩ rfl).trans ?_
    refine iblk0_1_at V c t (ix2 r ⟨r.val + 1, by omega⟩) _ hR ?_
    exact nextCol_at_inner ht hR h hr

private theorem mem_blk5 (t : Fin cfg0.N) (i : S8192x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v0_2).slice (win0_5.rect t)).set ↔ _
  rw [View.set_slice_whole, Rect.mem_set_unit]
  exact Iff.rfl

private theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, ht⟩ : ∃ t : Fin cfg0.N, t.val = (i 0).val / 256 := ⟨⟨(i 0).val / 256, by rw [show cfg0.N = 32 from N_0]; omega⟩, rfl⟩
  obtain ⟨-, -, -, -, -, -, -, -, -, -, e0, e1⟩ := idx_facts t
  refine ⟨t, flush0_5 t, ?_⟩
  rw [mem_blk5]
  intro a
  match a with
  | ⟨0, _⟩ => show win0_5.index t 0 * 256 ≤ (i 0).val ∧ (i 0).val < win0_5.index t 0 * 256 + 256; rw [e0, ht]; omega
  | ⟨1, _⟩ => show win0_5.index t 1 * 1 ≤ (i 1).val ∧ (i 1).val < win0_5.index t 1 * 1 + 1; rw [e1]; omega

/-- The first output array after all the grid points. -/
theorem subCol_eq (c : Dev nD) : (dat0 (F := Ideal) V c).arrAt 3 cfg0.N = subColFn (V c main_arg1) :=
  (dat0 V c).arrAt_eq_of_cover 3 (subColFn (V c main_arg1)) (fun t _ => flushed3_eq V c t) cover3
/-- The second output array after all the grid points. -/
theorem diagCol_eq (c : Dev nD) : (dat0 (F := Ideal) V c).arrAt 4 cfg0.N = diagColFn (V c main_arg1) :=
  (dat0 V c).arrAt_eq_of_cover 4 (diagColFn (V c main_arg1)) (fun t _ => flushed4_eq V c t) cover4
/-- The third output array after all the grid points. -/
theorem supCol_eq (c : Dev nD) : (dat0 (F := Ideal) V c).arrAt 5 cfg0.N = supColFn (V c main_arg1) :=
  (dat0 V c).arrAt_eq_of_cover 5 (supColFn (V c main_arg1)) (fun t _ => flushed5_eq V c t) cover5

end Cert.KernelIdeal.Hand

end
-- ==== Proof.KI.CombineValue.lean ====
/-
  What the second kernel region leaves in its output array, at the ideal values, as one function of the arrays it is
  entered with: entry `(b, r)` of the result is the sum of three products — the input's entry to the left on row `b`
  (around the end) times the first coefficient row's entry at column `r`, the input's entry there times the second's,
  and the input's entry to the right (around the end) times the third's.
-/
import proofs.«178726_j37838661878516_1_alg».proof.Proof.KI.Region1
import proofs.«178726_j37838661878516_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (prevCol nextCol)

/-- The combination of a 256×8192 array `x` with three 1×8192 coefficient rows. -/
def combineFn (x : FVec Ideal S256x8192 .f32) (a b e : FVec Ideal S1x8192 .f32) : FVec Ideal S256x8192 .f32 :=
  fun i =>
    let p : Fin 256 := i 0
    let r : Fin 8192 := i 1
    (x (ix2 p (prevCol r)) * a (ix2 (0 : Fin 1) r) + x (ix2 p r) * b (ix2 (0 : Fin 1) r))
      + x (ix2 p (nextCol r)) * e (ix2 (0 : Fin 1) r)

/-! ## The body's value at an entry -/

/-- Rotating a row by one column reads the column before, around the end. -/
private theorem rot_prev (x0 : Vec Ideal S64x8192 .f32) (p : Fin 64) (q : Fin 8192) :
    dynamicRotate 1 1#32 none x0 rotates_S64x8192_d1 (ix2 p q) = x0 (ix2 p (prevCol q)) := by
  refine dynamicRotate_apply 1 1#32 x0 rotates_S64x8192_d1 (ix2 p q) (ix2 p (prevCol q)) fun b => ?_
  match b with
  | ⟨0, _⟩ => rfl
  | ⟨1, _⟩ =>
    show (prevCol q).val = (q.val + 8192 - 1 % 8192) % 8192
    rw [Cert.Spec.prevCol_val]; omega

/-- Rotating a row by all but one column reads the column after, around the end. -/
private theorem rot_next (x0 : Vec Ideal S64x8192 .f32) (p : Fin 64) (q : Fin 8192) :
    dynamicRotate 1 8191#32 none x0 rotates_S64x8192_d1 (ix2 p q) = x0 (ix2 p (nextCol q)) := by
  refine dynamicRotate_apply 1 8191#32 x0 rotates_S64x8192_d1 (ix2 p q) (ix2 p (nextCol q)) fun b => ?_
  match b with
  | ⟨0, _⟩ => rfl
  | ⟨1, _⟩ =>
    show (nextCol q).val = (q.val + 8192 - 8191 % 8192) % 8192
    rw [Cert.Spec.nextCol_val]; omega

/-- The body's value at entry `(p, q)` of a block: the block's entry to the left on row `p` times the first
    coefficient at column `q`, plus the entry itself times the second, plus the entry to the right times the third. -/
private theorem pay_apply (x0 : Vec Ideal S64x8192 .f32) (a b e : Vec Ideal S1x8192 .f32) (p : Fin 64) (q : Fin 8192) :
    k1_pay1 x0 a b e (ix2 p q)
      = (x0 (ix2 p (prevCol q)) * a (ix2 (0 : Fin 1) q) + x0 (ix2 p q) * b (ix2 (0 : Fin 1) q))
        + x0 (ix2 p (nextCol q)) * e (ix2 (0 : Fin 1) q) := by
  unfold k1_pay1
  simp only [shapeCast_self]
  rw [addf_apply, addf_apply, mulf_apply, mulf_apply, mulf_apply,
    broadcastTo_1b_ab_apply, broadcastTo_1b_ab_apply, broadcastTo_1b_ab_apply, rot_prev, rot_next]

/-- The body's value at an entry of a block is the combination at the matching entry of the array, when the block's
    rows are rows of the array (row `j 0` of the block is row `k 0` of the array), the columns are the same and the
    coefficient rows are the arrays' rows. -/
private theorem pay_eq_combine (x0 : Vec Ideal S64x8192 .f32) (a b e : Vec Ideal S1x8192 .f32)
    (X : FVec Ideal S256x8192 .f32) (A B E : FVec Ideal S1x8192 .f32)
    (j : S64x8192.Idx) (k : S256x8192.Idx) (ha : a = A) (hb : b = B) (he : e = E) (hk1 : (k 1).val = (j 1).val)
    (hx : ∀ q : Fin 8192, x0 (ix2 (j 0) q) = X (ix2 (k 0) q)) :
    k1_pay1 x0 a b e j = combineFn X A B E k := by
  subst ha; subst hb; subst he
  obtain ⟨p, q, rfl⟩ : ∃ (p : Fin 64) (q : Fin 8192), j = ix2 p q := ⟨j 0, j 1, eq_ix2 j⟩
  obtain ⟨p', q', rfl⟩ : ∃ (p' : Fin 256) (q' : Fin 8192), k = ix2 p' q' := ⟨k 0, k 1, eq_ix2 k⟩
  obtain rfl : q' = q := Fin.ext hk1
  have hx' : ∀ r : Fin 8192, x0 (ix2 p r) = X (ix2 p' r) := hx
  rw [pay_apply, hx', hx', hx']
  rfl

/-! ## From the blocks to the array -/

section Blocks

variable (V : (c : Dev nD) → (b : Ref sig .tc) → Buf (Elt Ideal) ((c : Thread nD τ).loc b))

private theorem hz : (![0, 0] : Fin 2 → Nat) = fun _ => 0 := funext fun a => by fin_cases a <;> rfl

/-- The block index maps, decided over the four grid points: the input's and the output's block at point `t` is block
    `t` down the rows and the only block across the columns; each coefficient row's block is the only one. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The input window's block at point `t` is rows `64 t … 64 t + 63` of the input array. -/
private theorem blk0_apply (c : Dev nD) (t : Fin cfg1.N) (x : S64x8192.Idx) (k : S256x8192.Idx)
    (hk0 : (k 0).val = 64 * t.val + (x 0).val) (hk1 : (k 1).val = (x 1).val) :
    (iblk1 V c 0 t : Vec Ideal S64x8192 .f32) x = (V c main_arg0 : S256x8192.Idx → Elt Ideal .f32) k := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 64 + 1 * (x 0).val = (k 0).val; rw [e0, hk0]; omega
  | ⟨1, _⟩ => show win1_0.index t (1 : Fin 2) * 8192 + 1 * (x 1).val = (k 1).val; rw [e1, hk1]; omega

/-- Each coefficient window's block at any point is its whole row. -/
private theorem row1_eq (c : Dev nD) (t : Fin cfg1.N) : (iblk1 V c 1 t : Vec Ideal S1x8192 .f32) = V c main_v33 := by
  obtain ⟨-, -, e0, e1, -⟩ := idx_facts t
  funext x
  unfold iblk1
  rw [View.read_apply]
  show V c main_v33 _ = V c main_v33 _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 8192 + 1 * (x 1).val = (x 1).val; rw [e1]; omega
private theorem row2_eq (c : Dev nD) (t : Fin cfg1.N) : (iblk1 V c 2 t : Vec Ideal S1x8192 .f32) = V c main_v35 := by
  obtain ⟨-, -, -, -, e0, e1, -⟩ := idx_facts t
  funext x
  unfold iblk1
  rw [View.read_apply]
  show V c main_v35 _ = V c main_v35 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 8192 + 1 * (x 1).val = (x 1).val; rw [e1]; omega
private theorem row3_eq (c : Dev nD) (t : Fin cfg1.N) : (iblk1 V c 3 t : Vec Ideal S1x8192 .f32) = V c main_v37 := by
  obtain ⟨-, -, -, -, -, -, e0, e1, -⟩ := idx_facts t
  funext x
  unfold iblk1
  rw [View.read_apply]
  show V c main_v37 _ = V c main_v37 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 8192 + 1 * (x 1).val = (x 1).val; rw [e1]; omega

/-- What point `t` writes back is block `t` of the combination of the entry arrays. -/
private theorem flushed_eq (c : Dev nD) (t : Fin cfg1.N) :
    (dat1 (F := Ideal) V c).flushed 4 t
      = ((cfg1.win 4).blk t).view.read (Elt Ideal) (combineFn (V c main_arg0) (V c main_v33) (V c main_v35) (V c main_v37)) := by
  show (cfg1.win 4).cut (grid1.coords t) ((dat1 V c).after 4 t) = _
  rw [after1_4]
  unfold out1_4
  rw [View.canon_unit_zero hz]
  simp only [View.ld_unit_zero (S := S64x8192) hz, View.ld_unit_zero (S := S1x8192) hz]
  obtain ⟨-, -, -, -, -, -, -, -, e0, e1⟩ := idx_facts t
  funext j
  refine pay_eq_combine (iblk1 V c 0 t) (iblk1 V c 1 t) (iblk1 V c 2 t) (iblk1 V c 3 t)
    (V c main_arg0) (V c main_v33) (V c main_v35) (V c main_v37) j (((cfg1.win 4).blk t).view.emb j)
    (row1_eq V c t) (row2_eq V c t) (row3_eq V c t) ?_ fun q => ?_
  · show win1_4.index t (1 : Fin 2) * 8192 + 1 * (j 1).val = (j 1).val
    rw [e1]; omega
  · refine blk0_apply V c t _ _ ?_ rfl
    show win1_4.index t (0 : Fin 2) * 64 + 1 * (j 0).val = 64 * t.val + (j 0).val
    rw [e0]; omega

/-- An index of the output array is in point `t`'s block iff each coordinate is in the block's range on its axis. -/
private theorem mem_blk (t : Fin cfg1.N) (i : S256x8192.Idx) :
    i ∈ ((cfg1.win 4).blk t).view.set ↔ ∀ a : Fin 2, win1_4.index t a * S64x8192.size a ≤ (i a).val ∧ (i a).val < win1_4.index t a * S64x8192.size a + S64x8192.size a := by
  show i ∈ ((View.whole main_v38).slice (win1_4.rect t)).set ↔ _
  rw [View.set_slice_whole, Rect.mem_set_unit]
  exact Iff.rfl

/-- Every entry of the output array is written by some point: row `r` by point `r / 64`. -/
private theorem cover (i : S256x8192.Idx) :
    ∃ t : Fin cfg1.N, (cfg1.win 4).flush t = true ∧ i ∈ ((cfg1.win 4).blk t).view.set := by
  have hi0 : (i 0).val < 256 := (i 0).isLt
  have hi1 : (i 1).val < 8192 := (i 1).isLt
  refine ⟨⟨(i 0).val / 64, by show (i 0).val / 64 < 4; omega⟩, flush1_4 _, ?_⟩
  rw [mem_blk]
  obtain ⟨-, -, -, -, -, -, -, -, e0, e1⟩ := idx_facts ⟨(i 0).val / 64, by show (i 0).val / 64 < 4; omega⟩
  intro a
  match a with
  | ⟨0, _⟩ =>
    show win1_4.index _ (0 : Fin 2) * 64 ≤ (i 0).val ∧ (i 0).val < win1_4.index _ (0 : Fin 2) * 64 + 64
    rw [e0]; show (i 0).val / 64 * 64 ≤ (i 0).val ∧ (i 0).val < (i 0).val / 64 * 64 + 64; omega
  | ⟨1, _⟩ =>
    show win1_4.index _ (1 : Fin 2) * 8192 ≤ (i 1).val ∧ (i 1).val < win1_4.index _ (1 : Fin 2) * 8192 + 8192
    rw [e1]; omega

end Blocks

/-- The second region's output array after all its grid points, at the ideal values: the combination of the arrays
    it was entered with. -/
theorem result_eq (V : (c : Dev nD) → (b : Ref sig .tc) → Buf (Elt Ideal) ((c : Thread nD τ).loc b)) (c : Dev nD) :
    (dat1 (F := Ideal) V c).arrAt 4 cfg1.N
      = combineFn (V c main_arg0) (V c main_v33) (V c main_v35) (V c main_v37) :=
  (dat1 (F := Ideal) V c).arrAt_eq_of_cover 4 (combineFn (V c main_arg0) (V c main_v33) (V c main_v35) (V c main_v37))
    (fun t _ => flushed_eq V c t) cover

end Cert.KernelIdeal.Hand

end
-- ==== Proof.KI.Value.lean ====
/-
  The idealized kernel's result as the specification's function of its three arguments.

  The host operations between the two kernel regions turn the first region's three columns into the three coefficient
  rows: each column read as a row and multiplied, entry by entry, by a coefficient vector computed from the bias.
  The second region combines the input with those rows. Read at an index, with the first region's columns being the
  three diagonals of the weight matrix, the result is the specification's sum of three products.
-/
import proofs.«178726_j37838661878516_1_alg».proof.Proof.KI.Contents
import proofs.«178726_j37838661878516_1_alg».proof.Proof.KI.DiagValue
import proofs.«178726_j37838661878516_1_alg».proof.Proof.KI.CombineValue
import proofs.«178726_j37838661878516_1_alg».proof.Proof.Spec
import proofs.«178726_j37838661878516_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal
open Idealize.ShloMosaic Idealize.ShloMosaic.TcCoe Idealize.ShloMosaic.ValueIdx Idealize.ShloMosaic.StableHlo
open Idealize.SL Idealize.SL.Sem
open Idealize.ShloMosaic.Pipeline (Dat)
open Cert.Spec (prevCol nextCol)

/-- The kernel's shape facts, bundled as the specification's coefficient chain takes them. -/
theorem coefFacts : Cert.Spec.CoefFacts :=
  ⟨Facts₀.bcast_S_S8192, Facts₀.slices_S8192_S1_0, Facts₀.slices_S8192_S1_8191, Facts₀.shapeCasts_S1_S_, Facts₀.bcast_S_S1,
    Facts₀.scatter_S8192_S1_S__n_0_0_0_wf⟩

variable (m : (ℓ : Loc nD τ sig) → Buf (Elt Ideal) ℓ)

/-! ## What the first region's exit valuation holds -/

theorem W1_sub (c : Dev nD) : W1 m c (Proc.devRef .tc main_v0_0) = subCol m c := by
  unfold W1
  rw [Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1),
    Function.update_self]
theorem W1_diag (c : Dev nD) : W1 m c (Proc.devRef .tc main_v0_1) = diagCol m c := by
  unfold W1
  rw [Function.update_of_ne (StableHlo.devRef_ne_of_ne (by decide) : (Proc.devRef .tc main_v0_1 : DevRef τ sig) ≠ Proc.devRef .tc main_v0_2),
    Function.update_self]
theorem W1_sup (c : Dev nD) : W1 m c (Proc.devRef .tc main_v0_2) = supCol m c := by
  unfold W1
  rw [Function.update_self]
theorem W1_of (c : Dev nD) (r : Ref sig .tc) (h : r ∉ ([main_v0_0, main_v0_1, main_v0_2] : List (Ref sig .tc))) :
    W1 m c (Proc.devRef .tc r) = m (c, Proc.devRef .tc r) := by
  unfold W1
  rw [Function.update_of_ne (StableHlo.devRef_ne_of_ne (List.ne_of_not_mem_cons (List.not_mem_of_not_mem_cons (List.not_mem_of_not_mem_cons h))) : (Proc.devRef .tc r : DevRef τ sig) ≠ Proc.devRef .tc main_v0_2),
    Function.update_of_ne (StableHlo.devRef_ne_of_ne (List.ne_of_not_mem_cons (List.not_mem_of_not_mem_cons h)) : (Proc.devRef .tc r : DevRef τ sig) ≠ Proc.devRef .tc main_v0_1),
    Function.update_of_ne (StableHlo.devRef_ne_of_ne (List.ne_of_not_mem_cons h) : (Proc.devRef .tc r : DevRef τ sig) ≠ Proc.devRef .tc main_v0_0)]

/-! ## The host operations between the regions -/

/-- No host operation writes the input. -/
theorem V2_arg0 (c : Dev nD) : V2 m c main_arg0 = m ((c.tc : Thread nD τ).loc main_arg0) :=
  (StableHlo.after_of_writes_sub Gen.hostOps1 _ Gen.hostOps1_writes (by decide)).trans (W1_of m c main_arg0 (by decide))

/-- The first coefficient row: the coefficient of the entry to the left times the column left of the diagonal, read as a row. -/
theorem v33_eq (c : Dev nD) :
    V2 m c main_v33 = mulf (shapeCast S1x8192 (Cert.Spec.cs coefFacts (m ((c.tc : Thread nD τ).loc main_arg2))) Facts₀.shapeCasts_S8192_S1x8192)
      (shapeCast S1x8192 (subCol m c) Facts₀.shapeCasts_S8192x1_S1x8192) := by
  show StableHlo.after Gen.hostOps1 (W1 m c) (Proc.devRef .tc main_v33) = _
  after_results_simp
  rw [W1_sub, W1_of m c main_arg2 (by decide)]
  rfl

/-- The second coefficient row: the coefficient of the entry itself times the diagonal, read as a row. -/
theorem v35_eq (c : Dev nD) :
    V2 m c main_v35 = mulf (shapeCast S1x8192 (Cert.Spec.cd coefFacts (m ((c.tc : Thread nD τ).loc main_arg2))) Facts₀.shapeCasts_S8192_S1x8192)
      (shapeCast S1x8192 (diagCol m c) Facts₀.shapeCasts_S8192x1_S1x8192) := by
  show StableHlo.after Gen.hostOps1 (W1 m c) (Proc.devRef .tc main_v35) = _
  after_results_simp
  rw [W1_diag, W1_of m c main_arg2 (by decide)]
  rfl

/-- The third coefficient row: the coefficient of the entry to the right times the column right of the diagonal, read as a row. -/
theorem v37_eq (c : Dev nD) :
    V2 m c main_v37 = mulf (shapeCast S1x8192 (Cert.Spec.cp coefFacts (m ((c.tc : Thread nD τ).loc main_arg2))) Facts₀.shapeCasts_S8192_S1x8192)
      (shapeCast S1x8192 (supCol m c) Facts₀.shapeCasts_S8192x1_S1x8192) := by
  show StableHlo.after Gen.hostOps1 (W1 m c) (Proc.devRef .tc main_v37) = _
  after_results_simp
  rw [W1_sup, W1_of m c main_arg2 (by decide)]
  rfl

/-! ## Read at an index -/

/-- A length-8192 vector read as a 1×8192 row. -/
theorem rowOfVec_apply (v : FVec Ideal S8192 .f32) (h : S8192.ShapeCasts S1x8192) (r : Fin 8192) :
    shapeCast S1x8192 v h (ix2 (0 : Fin 1) r) = v (ix1 r) :=
  shapeCast_a_1a_apply v h 0 r

/-- An 8192×1 column read as a 1×8192 row. -/
theorem rowOfCol_apply (v : FVec Ideal S8192x1 .f32) (h : S8192x1.ShapeCasts S1x8192) (r : Fin 8192) :
    shapeCast S1x8192 v h (ix2 (0 : Fin 1) r) = v (ix2 r (0 : Fin 1)) :=
  shapeCast_apply v h _ _ (by
    rw [Shape.rowMajor_val_two, Shape.rowMajor_val_two]
    show r.val * 1 + 0 = 0 * 8192 + r.val
    omega)

/-- The combination of the input with the three coefficient rows made of a coefficient vector times a diagonal is
    the specification's sum of three products. -/
theorem combine_spec (x : FVec Ideal S256x8192 .f32) (W : FVec Ideal S8192x8192 .f32) (cs cd cp : FVec Ideal S8192 .f32)
    (h1 : S8192.ShapeCasts S1x8192) (h2 : S8192x1.ShapeCasts S1x8192) :
    combineFn x (mulf (shapeCast S1x8192 cs h1) (shapeCast S1x8192 (subColFn W) h2))
        (mulf (shapeCast S1x8192 cd h1) (shapeCast S1x8192 (diagColFn W) h2))
        (mulf (shapeCast S1x8192 cp h1) (shapeCast S1x8192 (supColFn W) h2))
      = Cert.Spec.G x W cs cd cp := by
  funext i
  obtain ⟨p, r, rfl⟩ : ∃ (p : Fin 256) (r : Fin 8192), i = ix2 p r := ⟨i 0, i 1, eq_ix2 i⟩
  rw [Cert.Spec.G_apply]
  unfold combineFn
  dsimp only
  rw [mulf_apply, mulf_apply, mulf_apply, rowOfVec_apply, rowOfVec_apply, rowOfVec_apply, rowOfCol_apply, rowOfCol_apply, rowOfCol_apply]
  rfl

/-- THE KERNEL'S RESULT is the specification's function of the three arguments. -/
theorem result_spec (c : Dev nD) :
    result m c = Cert.Spec.out coefFacts (m ((c.tc : Thread nD τ).loc main_arg0)) (m ((c.tc : Thread nD τ).loc main_arg1))
      (m ((c.tc : Thread nD τ).loc main_arg2)) :=
  (result_eq (V2 m) c).trans (by
    rw [V2_arg0 m c, v33_eq m c, v35_eq m c, v37_eq m c,
      show subCol m c = subColFn (m ((c.tc : Thread nD τ).loc main_arg1)) from subCol_eq (V0 m) c,
      show diagCol m c = diagColFn (m ((c.tc : Thread nD τ).loc main_arg1)) from diagCol_eq (V0 m) c,
      show supCol m c = supColFn (m ((c.tc : Thread nD τ).loc main_arg1)) from supCol_eq (V0 m) c]
    exact combine_spec _ _ _ _ _ _ _)

end Cert.KernelIdeal.Hand

end
-- ==== Proof.Ref.Ops.lean ====
/-
  The reference program's @main as one straight line of host operations.

  @main calls four module-local functions: the remainder of an index vector by a scalar (twice; its
  body itself calls the scalar select that guards a zero divisor), and the two one-column rotations of
  the input along its minor dimension (the last column moved to the front; the first column moved to the
  back). A call executes the callee's body on the operands, each value of the body in a buffer of its own,
  so @main is the list below: its own operations in order, and at each call the callee's operations over
  that call's buffers with the call's operands in place of the parameters. The remainder is twenty-one
  operations (the divisor's copy, the zero test and the select that replaces a zero divisor by one, the
  truncated remainder, then the sign correction: where the remainder is nonzero and its sign differs
  from the divisor's, the divisor is added); a rotation is three (the two slices and their
  concatenation). In all 112 + 2 · 21 + 2 · 3 = 160 operations.

  No buffer of the program is scoped, and every operation names TensorCore buffers only: the two facts
  the run of a straight line takes.
-/
import proofs.«178726_j37838661878516_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 160 operations in order, each call's body in its place over the call's buffers. -/
abbrev ops : List (HloOp τ sig (Elt F)) :=
  [ nullary main_v0 (iotaInDim S8192 32 0),
    nullary main_c (constantI S_ 32 1#32),
    unary main_c main_v1 (broadcastInDim S8192 ![] bcast_S_S8192 : (⟨S_, .i32⟩ : BufTy).Contents (Elt F) → (⟨S8192, .i32⟩ : BufTy).Contents (Elt F)),
    binary main_v0 main_v1 main_v2 (subi : (⟨S8192, .i32⟩ : BufTy).Contents (Elt F) → (⟨S8192, .i32⟩ : BufTy).Contents (Elt F) → (⟨S8192, .i32⟩ : BufTy).Contents (Elt F)),
    nullary main_c_0 (constantI S_ 32 8192#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8192 ![] bcast_S_S8192),
    TRef.binary (.of main_v2) main_call0.v3 main_call0.v4 Host.remsi,
    TRef.nullary main_call0.c_1 (constantI S_ 32 0#32),
    TRef.unary main_call0.c_1 main_call0.v5 (broadcastInDim S8192 ![] bcast_S_S8192),
    TRef.binary main_call0.v4 main_call0.v5 main_call0.v6 (cmpi .ne),
    TRef.nullary main_call0.c_2 (constantI S_ 32 0#32),
    TRef.unary main_call0.c_2 main_call0.v7 (broadcastInDim S8192 ![] bcast_S_S8192),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8192 ![] bcast_S_S8192),
    TRef.binary main_call0.v8 main_call0.v10 main_call0.v11 (cmpi .ne),
    TRef.binary main_call0.v11 main_call0.v6 main_call0.v12 andi,
    TRef.unary main_call0.call0.v0 main_call0.v13 (broadcastInDim S8192 ![] bcast_S_S8192),
    TRef.binary main_call0.v4 main_call0.v13 main_call0.v14 addi,
    TRef.ternary main_call0.v12 main_call0.v14 main_call0.v4 main_call0.v15 select,
    nullary main_c_1 (constantI S_ 32 0#32),
    unary main_c_1 main_v4 (broadcastInDim S8192 ![] bcast_S_S8192 : (⟨S_, .i32⟩ : BufTy).Contents (Elt F) → (⟨S8192, .i32⟩ : BufTy).Contents (Elt F)),
    binary main_v0 main_v4 main_v5 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v6 (broadcastInDim S8192 ![] bcast_S_S8192 : (⟨S_, .i32⟩ : BufTy).Contents (Elt F) → (⟨S8192, .i32⟩ : BufTy).Contents (Elt F)),
    binary main_v0 main_v6 main_v7 (addi : (⟨S8192, .i32⟩ : BufTy).Contents (Elt F) → (⟨S8192, .i32⟩ : BufTy).Contents (Elt F) → (⟨S8192, .i32⟩ : BufTy).Contents (Elt F)),
    ternary main_v5 main_v7 main_v0 main_v8 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_3 (constantI S_ 32 0#32),
    unary main_c_3 main_v9 (broadcastInDim S8192 ![] bcast_S_S8192 : (⟨S_, .i32⟩ : BufTy).Contents (Elt F) → (⟨S8192, .i32⟩ : BufTy).Contents (Elt F)),
    binary main_v3 main_v9 main_v10 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v11 (broadcastInDim S8192 ![] bcast_S_S8192 : (⟨S_, .i32⟩ : BufTy).Contents (Elt F) → (⟨S8192, .i32⟩ : BufTy).Contents (Elt F)),
    binary main_v3 main_v11 main_v12 (addi : (⟨S8192, .i32⟩ : BufTy).Contents (Elt F) → (⟨S8192, .i32⟩ : BufTy).Contents (Elt F) → (⟨S8192, .i32⟩ : BufTy).Contents (Elt F)),
    ternary main_v10 main_v12 main_v3 main_v13 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v8 main_v14 (broadcastInDim S8192x1 ![0] bcast_S8192_S8192x1_0 : (⟨S8192, .i32⟩ : BufTy).Contents (Elt F) → (⟨S8192x1, .i32⟩ : BufTy).Contents (Elt F)),
    unary main_v13 main_v15 (broadcastInDim S8192x1 ![0] bcast_S8192_S8192x1_0 : (⟨S8192, .i32⟩ : BufTy).Contents (Elt F) → (⟨S8192x1, .i32⟩ : BufTy).Contents (Elt F)),
    binary main_v14 main_v15 main_v16 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_arg1 main_v16 main_v17 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_c_5 (constantI S_ 32 0#32),
    unary main_c_5 main_v18 (broadcastInDim S8192 ![] bcast_S_S8192 : (⟨S_, .i32⟩ : BufTy).Contents (Elt F) → (⟨S8192, .i32⟩ : BufTy).Contents (Elt F)),
    binary main_v0 main_v18 main_v19 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v20 (broadcastInDim S8192 ![] bcast_S_S8192 : (⟨S_, .i32⟩ : BufTy).Contents (Elt F) → (⟨S8192, .i32⟩ : BufTy).Contents (Elt F)),
    binary main_v0 main_v20 main_v21 (addi : (⟨S8192, .i32⟩ : BufTy).Contents (Elt F) → (⟨S8192, .i32⟩ : BufTy).Contents (Elt F) → (⟨S8192, .i32⟩ : BufTy).Contents (Elt F)),
    ternary main_v19 main_v21 main_v0 main_v22 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_7 (constantI S_ 32 0#32),
    unary main_c_7 main_v23 (broadcastInDim S8192 ![] bcast_S_S8192 : (⟨S_, .i32⟩ : BufTy).Contents (Elt F) → (⟨S8192, .i32⟩ : BufTy).Contents (Elt F)),
    binary main_v0 main_v23 main_v24 (cmpi .slt : (⟨S8192, .i32⟩ : BufTy).Contents (Elt F) → (⟨S8192, .i32⟩ : BufTy).Contents (Elt F) → (⟨S8192, .i1⟩ : BufTy).Contents (Elt F)),
    nullary main_c_8 (constantI S_ 32 8192#32),
    unary main_c_8 main_v25 (broadcastInDim S8192 ![] bcast_S_S8192 : (⟨S_, .i32⟩ : BufTy).Contents (Elt F) → (⟨S8192, .i32⟩ : BufTy).Contents (Elt F)),
    binary main_v0 main_v25 main_v26 (addi : (⟨S8192, .i32⟩ : BufTy).Contents (Elt F) → (⟨S8192, .i32⟩ : BufTy).Contents (Elt F) → (⟨S8192, .i32⟩ : BufTy).Contents (Elt F)),
    ternary main_v24 main_v26 main_v0 main_v27 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v22 main_v28 (broadcastInDim S8192x1 ![0] bcast_S8192_S8192x1_0 : (⟨S8192, .i32⟩ : BufTy).Contents (Elt F) → (⟨S8192x1, .i32⟩ : BufTy).Contents (Elt F)),
    unary main_v27 main_v29 (broadcastInDim S8192x1 ![0] bcast_S8192_S8192x1_0 : (⟨S8192, .i32⟩ : BufTy).Contents (Elt F) → (⟨S8192x1, .i32⟩ : BufTy).Contents (Elt F)),
    binary main_v28 main_v29 main_v30 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_arg1 main_v30 main_v31 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_c_9 (constantI S_ 32 1#32),
    unary main_c_9 main_v32 (broadcastInDim S8192 ![] bcast_S_S8192 : (⟨S_, .i32⟩ : BufTy).Contents (Elt F) → (⟨S8192, .i32⟩ : BufTy).Contents (Elt F)),
    binary main_v0 main_v32 main_v33 (addi : (⟨S8192, .i32⟩ : BufTy).Contents (Elt F) → (⟨S8192, .i32⟩ : BufTy).Contents (Elt F) → (⟨S8192, .i32⟩ : BufTy).Contents (Elt F)),
    nullary main_c_10 (constantI S_ 32 8192#32),
    TRef.unary (.of main_c_10) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S8192 ![] bcast_S_S8192),
    TRef.binary (.of main_v33) main_call1.v3 main_call1.v4 Host.remsi,
    TRef.nullary main_call1.c_1 (constantI S_ 32 0#32),
    TRef.unary main_call1.c_1 main_call1.v5 (broadcastInDim S8192 ![] bcast_S_S8192),
    TRef.binary main_call1.v4 main_call1.v5 main_call1.v6 (cmpi .ne),
    TRef.nullary main_call1.c_2 (constantI S_ 32 0#32),
    TRef.unary main_call1.c_2 main_call1.v7 (broadcastInDim S8192 ![] bcast_S_S8192),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S8192 ![] bcast_S_S8192),
    TRef.binary main_call1.v8 main_call1.v10 main_call1.v11 (cmpi .ne),
    TRef.binary main_call1.v11 main_call1.v6 main_call1.v12 andi,
    TRef.unary main_call1.call0.v0 main_call1.v13 (broadcastInDim S8192 ![] bcast_S_S8192),
    TRef.binary main_call1.v4 main_call1.v13 main_call1.v14 addi,
    TRef.ternary main_call1.v12 main_call1.v14 main_call1.v4 main_call1.v15 select,
    nullary main_c_11 (constantI S_ 32 0#32),
    unary main_c_11 main_v35 (broadcastInDim S8192 ![] bcast_S_S8192 : (⟨S_, .i32⟩ : BufTy).Contents (Elt F) → (⟨S8192, .i32⟩ : BufTy).Contents (Elt F)),
    binary main_v0 main_v35 main_v36 (cmpi .slt : (⟨S8192, .i32⟩ : BufTy).Contents (Elt F) → (⟨S8192, .i32⟩ : BufTy).Contents (Elt F) → (⟨S8192, .i1⟩ : BufTy).Contents (Elt F)),
    nullary main_c_12 (constantI S_ 32 8192#32),
    unary main_c_12 main_v37 (broadcastInDim S8192 ![] bcast_S_S8192 : (⟨S_, .i32⟩ : BufTy).Contents (Elt F) → (⟨S8192, .i32⟩ : BufTy).Contents (Elt F)),
    binary main_v0 main_v37 main_v38 (addi : (⟨S8192, .i32⟩ : BufTy).Contents (Elt F) → (⟨S8192, .i32⟩ : BufTy).Contents (Elt F) → (⟨S8192, .i32⟩ : BufTy).Contents (Elt F)),
    ternary main_v36 main_v38 main_v0 main_v39 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_13 (constantI S_ 32 0#32),
    unary main_c_13 main_v40 (broadcastInDim S8192 ![] bcast_S_S8192 : (⟨S_, .i32⟩ : BufTy).Contents (Elt F) → (⟨S8192, .i32⟩ : BufTy).Contents (Elt F)),
    binary main_v34 main_v40 main_v41 (cmpi .slt : (⟨S8192, .i32⟩ : BufTy).Contents (Elt F) → (⟨S8192, .i32⟩ : BufTy).Contents (Elt F) → (⟨S8192, .i1⟩ : BufTy).Contents (Elt F)),
    nullary main_c_14 (constantI S_ 32 8192#32),
    unary main_c_14 main_v42 (broadcastInDim S8192 ![] bcast_S_S8192 : (⟨S_, .i32⟩ : BufTy).Contents (Elt F) → (⟨S8192, .i32⟩ : BufTy).Contents (Elt F)),
    binary main_v34 main_v42 main_v43 (addi : (⟨S8192, .i32⟩ : BufTy).Contents (Elt F) → (⟨S8192, .i32⟩ : BufTy).Contents (Elt F) → (⟨S8192, .i32⟩ : BufTy).Contents (Elt F)),
    ternary main_v41 main_v43 main_v34 main_v44 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v39 main_v45 (broadcastInDim S8192x1 ![0] bcast_S8192_S8192x1_0 : (⟨S8192, .i32⟩ : BufTy).Contents (Elt F) → (⟨S8192x1, .i32⟩ : BufTy).Contents (Elt F)),
    unary main_v44 main_v46 (broadcastInDim S8192x1 ![0] bcast_S8192_S8192x1_0 : (⟨S8192, .i32⟩ : BufTy).Contents (Elt F) → (⟨S8192x1, .i32⟩ : BufTy).Contents (Elt F)),
    binary main_v45 main_v46 main_v47 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_arg1 main_v47 main_v48 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst (constant S_ .f32 0x3F800000#32),
    unary main_cst main_v49 (broadcastInDim S8192 ![] bcast_S_S8192 : (⟨S_, .f32⟩ : BufTy).Contents (Elt F) → (⟨S8192, .f32⟩ : BufTy).Contents (Elt F)),
    binary main_v49 main_arg2 main_v50 (addf : (⟨S8192, .f32⟩ : BufTy).Contents (Elt F) → (⟨S8192, .f32⟩ : BufTy).Contents (Elt F) → (⟨S8192, .f32⟩ : BufTy).Contents (Elt F)),
    binary main_v50 main_v50 main_v51 (mulf : (⟨S8192, .f32⟩ : BufTy).Contents (Elt F) → (⟨S8192, .f32⟩ : BufTy).Contents (Elt F) → (⟨S8192, .f32⟩ : BufTy).Contents (Elt F)),
    binary main_v51 main_v50 main_v52 (mulf : (⟨S8192, .f32⟩ : BufTy).Contents (Elt F) → (⟨S8192, .f32⟩ : BufTy).Contents (Elt F) → (⟨S8192, .f32⟩ : BufTy).Contents (Elt F)),
    unary main_v50 main_v53 ((extractStridedSlice S1 ![0] · slices_S8192_S1_0) : (⟨S8192, .f32⟩ : BufTy).Contents (Elt F) → (⟨S1, .f32⟩ : BufTy).Contents (Elt F)),
    reshape main_v53 main_v54 rfl shapeCasts_S1_S_,
    nullary main_c_15 (constantI S_ 32 0#32),
    unary main_c_15 main_v55 (broadcastInDim S1 ![] bcast_S_S1 : (⟨S_, .i32⟩ : BufTy).Contents (Elt F) → (⟨S1, .i32⟩ : BufTy).Contents (Elt F)),
    ternary main_v52 main_v55 main_v54 main_v56 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    unary main_v51 main_v57 ((extractStridedSlice S1 ![8191] · slices_S8192_S1_8191) : (⟨S8192, .f32⟩ : BufTy).Contents (Elt F) → (⟨S1, .f32⟩ : BufTy).Contents (Elt F)),
    reshape main_v57 main_v58 rfl shapeCasts_S1_S_,
    nullary main_c_16 (constantI S_ 32 8191#32),
    unary main_c_16 main_v59 (broadcastInDim S1 ![] bcast_S_S1 : (⟨S_, .i32⟩ : BufTy).Contents (Elt F) → (⟨S1, .i32⟩ : BufTy).Contents (Elt F)),
    ternary main_v56 main_v59 main_v58 main_v60 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    unary main_v52 main_v61 ((extractStridedSlice S1 ![0] · slices_S8192_S1_0) : (⟨S8192, .f32⟩ : BufTy).Contents (Elt F) → (⟨S1, .f32⟩ : BufTy).Contents (Elt F)),
    reshape main_v61 main_v62 rfl shapeCasts_S1_S_,
    nullary main_c_17 (constantI S_ 32 0#32),
    unary main_c_17 main_v63 (broadcastInDim S1 ![] bcast_S_S1 : (⟨S_, .i32⟩ : BufTy).Contents (Elt F) → (⟨S1, .i32⟩ : BufTy).Contents (Elt F)),
    ternary main_v51 main_v63 main_v62 main_v64 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    unary main_v50 main_v65 ((extractStridedSlice S1 ![8191] · slices_S8192_S1_8191) : (⟨S8192, .f32⟩ : BufTy).Contents (Elt F) → (⟨S1, .f32⟩ : BufTy).Contents (Elt F)),
    reshape main_v65 main_v66 rfl shapeCasts_S1_S_,
    nullary main_c_18 (constantI S_ 32 8191#32),
    unary main_c_18 main_v67 (broadcastInDim S1 ![] bcast_S_S1 : (⟨S_, .i32⟩ : BufTy).Contents (Elt F) → (⟨S1, .i32⟩ : BufTy).Contents (Elt F)),
    ternary main_v64 main_v67 main_v66 main_v68 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    unary main_v51 main_v69 ((extractStridedSlice S1 ![0] · slices_S8192_S1_0) : (⟨S8192, .f32⟩ : BufTy).Contents (Elt F) → (⟨S1, .f32⟩ : BufTy).Contents (Elt F)),
    reshape main_v69 main_v70 rfl shapeCasts_S1_S_,
    nullary main_c_19 (constantI S_ 32 0#32),
    unary main_c_19 main_v71 (broadcastInDim S1 ![] bcast_S_S1 : (⟨S_, .i32⟩ : BufTy).Contents (Elt F) → (⟨S1, .i32⟩ : BufTy).Contents (Elt F)),
    ternary main_v50 main_v71 main_v70 main_v72 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    unary main_v52 main_v73 ((extractStridedSlice S1 ![8191] · slices_S8192_S1_8191) : (⟨S8192, .f32⟩ : BufTy).Contents (Elt F) → (⟨S1, .f32⟩ : BufTy).Contents (Elt F)),
    reshape main_v73 main_v74 rfl shapeCasts_S1_S_,
    nullary main_c_20 (constantI S_ 32 8191#32),
    unary main_c_20 main_v75 (broadcastInDim S1 ![] bcast_S_S1 : (⟨S_, .i32⟩ : BufTy).Contents (Elt F) → (⟨S1, .i32⟩ : BufTy).Contents (Elt F)),
    ternary main_v72 main_v75 main_v74 main_v76 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    TRef.unary (.of main_arg0 : TRef sig ⟨S256x8192, .f32⟩) main_call2.v0 (extractStridedSlice S256x1 ![0, 8191] · slices_S256x8192_S256x1_0_8191),
    TRef.unary (.of main_arg0 : TRef sig ⟨S256x8192, .f32⟩) main_call2.v1 (extractStridedSlice S256x8191 ![0, 0] · slices_S256x8192_S256x8191_0_0),
    TRef.binary main_call2.v0 main_call2.v1 main_call2.v2 (fun a b => concatenate S256x8192 1 [⟨S256x1, a⟩, ⟨S256x8191, b⟩] concatenates_S256x1_S256x8191_S256x8192_d1),
    TRef.unary (.of main_arg0 : TRef sig ⟨S256x8192, .f32⟩) main_call3.v0 (extractStridedSlice S256x8191 ![0, 1] · slices_S256x8192_S256x8191_0_1),
    TRef.unary (.of main_arg0 : TRef sig ⟨S256x8192, .f32⟩) main_call3.v1 (extractStridedSlice S256x1 ![0, 0] · slices_S256x8192_S256x1_0_0),
    TRef.binary main_call3.v0 main_call3.v1 main_call3.v2 (fun a b => concatenate S256x8192 1 [⟨S256x8191, a⟩, ⟨S256x1, b⟩] concatenates_S256x8191_S256x1_S256x8192_d1),
    binary main_v60 main_v17 main_v79 (mulf : (⟨S8192, .f32⟩ : BufTy).Contents (Elt F) → (⟨S8192, .f32⟩ : BufTy).Contents (Elt F) → (⟨S8192, .f32⟩ : BufTy).Contents (Elt F)),
    unary main_v79 main_v80 (broadcastInDim S1x8192 ![1] bcast_S8192_S1x8192_1 : (⟨S8192, .f32⟩ : BufTy).Contents (Elt F) → (⟨S1x8192, .f32⟩ : BufTy).Contents (Elt F)),
    unary main_v80 main_v81 (broadcastInDim S256x8192 ![0, 1] bcast_S1x8192_S256x8192_0_1 : (⟨S1x8192, .f32⟩ : BufTy).Contents (Elt F) → (⟨S256x8192, .f32⟩ : BufTy).Contents (Elt F)),
    binary main_v77 main_v81 main_v82 (mulf : (⟨S256x8192, .f32⟩ : BufTy).Contents (Elt F) → (⟨S256x8192, .f32⟩ : BufTy).Contents (Elt F) → (⟨S256x8192, .f32⟩ : BufTy).Contents (Elt F)),
    binary main_v68 main_v31 main_v83 (mulf : (⟨S8192, .f32⟩ : BufTy).Contents (Elt F) → (⟨S8192, .f32⟩ : BufTy).Contents (Elt F) → (⟨S8192, .f32⟩ : BufTy).Contents (Elt F)),
    unary main_v83 main_v84 (broadcastInDim S1x8192 ![1] bcast_S8192_S1x8192_1 : (⟨S8192, .f32⟩ : BufTy).Contents (Elt F) → (⟨S1x8192, .f32⟩ : BufTy).Contents (Elt F)),
    unary main_v84 main_v85 (broadcastInDim S256x8192 ![0, 1] bcast_S1x8192_S256x8192_0_1 : (⟨S1x8192, .f32⟩ : BufTy).Contents (Elt F) → (⟨S256x8192, .f32⟩ : BufTy).Contents (Elt F)),
    binary main_arg0 main_v85 main_v86 (mulf : (⟨S256x8192, .f32⟩ : BufTy).Contents (Elt F) → (⟨S256x8192, .f32⟩ : BufTy).Contents (Elt F) → (⟨S256x8192, .f32⟩ : BufTy).Contents (Elt F)),
    binary main_v82 main_v86 main_v87 (addf : (⟨S256x8192, .f32⟩ : BufTy).Contents (Elt F) → (⟨S256x8192, .f32⟩ : BufTy).Contents (Elt F) → (⟨S256x8192, .f32⟩ : BufTy).Contents (Elt F)),
    binary main_v76 main_v48 main_v88 (mulf : (⟨S8192, .f32⟩ : BufTy).Contents (Elt F) → (⟨S8192, .f32⟩ : BufTy).Contents (Elt F) → (⟨S8192, .f32⟩ : BufTy).Contents (Elt F)),
    unary main_v88 main_v89 (broadcastInDim S1x8192 ![1] bcast_S8192_S1x8192_1 : (⟨S8192, .f32⟩ : BufTy).Contents (Elt F) → (⟨S1x8192, .f32⟩ : BufTy).Contents (Elt F)),
    unary main_v89 main_v90 (broadcastInDim S256x8192 ![0, 1] bcast_S1x8192_S256x8192_0_1 : (⟨S1x8192, .f32⟩ : BufTy).Contents (Elt F) → (⟨S256x8192, .f32⟩ : BufTy).Contents (Elt F)),
    binary main_v78 main_v90 main_v91 (mulf : (⟨S256x8192, .f32⟩ : BufTy).Contents (Elt F) → (⟨S256x8192, .f32⟩ : BufTy).Contents (Elt F) → (⟨S256x8192, .f32⟩ : BufTy).Contents (Elt F)),
    binary main_v87 main_v91 main_v92 (addf : (⟨S256x8192, .f32⟩ : BufTy).Contents (Elt F) → (⟨S256x8192, .f32⟩ : BufTy).Contents (Elt F) → (⟨S256x8192, .f32⟩ : BufTy).Contents (Elt F)) ]

/-- No TensorCore buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- Every operation of the line reads and writes TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., unary_bufs_sub .., binary_bufs_sub ..,
    binary_bufs_sub .., binary_bufs_sub .., unary_bufs_sub .., reshape_bufs_sub .., nullary_bufs_sub .., unary_bufs_sub ..,
    ternary_bufs_sub .., unary_bufs_sub .., reshape_bufs_sub .., nullary_bufs_sub .., unary_bufs_sub .., ternary_bufs_sub ..,
    unary_bufs_sub .., reshape_bufs_sub .., nullary_bufs_sub .., unary_bufs_sub .., ternary_bufs_sub .., unary_bufs_sub ..,
    reshape_bufs_sub .., nullary_bufs_sub .., unary_bufs_sub .., ternary_bufs_sub .., unary_bufs_sub .., reshape_bufs_sub ..,
    nullary_bufs_sub .., unary_bufs_sub .., ternary_bufs_sub .., unary_bufs_sub .., reshape_bufs_sub .., nullary_bufs_sub ..,
    unary_bufs_sub .., ternary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    binary_bufs_sub .., unary_bufs_sub .., unary_bufs_sub .., binary_bufs_sub .., binary_bufs_sub .., binary_bufs_sub ..,
    unary_bufs_sub .., unary_bufs_sub .., binary_bufs_sub .., binary_bufs_sub ..⟩

end Cert.ReferenceIdeal.Hand

end
-- ==== Proof.Ref.Run.lean ====
/-
  The reference program's run, read back.

  @main is the straight line `ops`: unfolding its two windows and the bodies of the four functions it
  calls (the remainder and, inside it, the scalar select; the two one-column rotations) at their calls,
  both sides are one chain of host steps once sequencing is reassociated. A straight line of host
  operations over unscoped TensorCore buffers runs to completion under every weakly fair schedule, and
  leaves each buffer at the fold of the operations over the launch contents: each operation rewrites the
  buffer it defines and leaves the others.
-/
import proofs.«178726_j37838661878516_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line: the two windows and the functions' definitions unfolded at their calls and the
    records at their fields, both sides are one chain of host steps once sequencing is reassociated. -/
theorem main_eq (c : Dev nD) : main (F := F) c = seq ops := by
  simp only [main, main_part0, main_part1, fn_remainder.body, fn_where.body, fn_roll_static.body, fn_roll_static_0.body,
    seq, bind_assoc, pure_bind]

/-- On every device, for any float values, from any memory with zero counters: every weakly fair execution of
    @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Terms.lean ====
/-
  The reference's main function as pure terms of its three arguments, stage by stage, over the printed program's own
  operations: the index vectors (a column's own index, the one before it and the one after it around the end, each
  as jnp computes it: a remainder by 8192 made non-negative, then a negative index moved up by 8192), the three
  gathers of the weight matrix at pairs of indices, the two rolls of the input along its rows (a slice of the last
  column in front of the rest, and the first column behind the rest), a vector laid along every row, and the result.
-/
import proofs.«178726_j37838661878516_1_alg».proof.Proof.Gen.ReferenceIdeal
import proofs.«178726_j37838661878516_1_alg».proof.Proof.Spec

noncomputable section

namespace Cert.ReferenceIdeal.Hand

open Cert.ReferenceIdeal
open Idealize.ShloMosaic
open Cert.ReferenceIdeal.Facts₀

variable {F : FTy → Type} [FloatOps F]

/-! ## Index vectors -/

/-- A 32-bit word splat over the length-8192 vector. -/
def splatI (v : BitVec 32) : IVec S8192 32 := broadcastInDim S8192 ![] bcast_S_S8192 (constantI S_ 32 v)

/-- The column numbers `0 … 8191` as words. -/
def iotaV : IVec S8192 32 := iotaInDim S8192 32 0

/-- jnp's remainder of `x` by the scalar `n`: the machine remainder (which takes the dividend's sign), moved up by the
    divisor where it is non-zero and its sign differs from the divisor's; a zero divisor is replaced by one. -/
def remTerm (x : IVec S8192 32) (n : IVec S_ 32) : IVec S8192 32 :=
  let v0 : IVec S_ 32 := id n
  let v1 : IVec S_ 1 := cmpi .eq v0 (constantI S_ 32 0#32)
  let v2 : IVec S_ 32 := select v1 (constantI S_ 32 1#32) v0
  let v4 : IVec S8192 32 := Host.remsi x (broadcastInDim S8192 ![] bcast_S_S8192 v2)
  let v6 : IVec S8192 1 := cmpi .ne v4 (broadcastInDim S8192 ![] bcast_S_S8192 (constantI S_ 32 0#32))
  let v8 : IVec S8192 1 := cmpi .slt v4 (broadcastInDim S8192 ![] bcast_S_S8192 (constantI S_ 32 0#32))
  let v9 : IVec S_ 1 := cmpi .slt v2 (constantI S_ 32 0#32)
  let v11 : IVec S8192 1 := cmpi .ne v8 (broadcastInDim S8192 ![] bcast_S_S8192 v9)
  let v12 : IVec S8192 1 := andi v11 v6
  let v14 : IVec S8192 32 := addi v4 (broadcastInDim S8192 ![] bcast_S_S8192 v2)
  select v12 v14 v4

/-- An index vector with its negative entries moved up by 8192 (a negative index counts from the end). -/
def wrapTerm (x : IVec S8192 32) : IVec S8192 32 :=
  select (cmpi .slt x (splatI 0#32)) (addi x (splatI 8192#32)) x

/-- Each column's own number. -/
def idxSelf : IVec S8192 32 := wrapTerm iotaV
/-- The number of the column before, around the end. -/
def idxPrev : IVec S8192 32 := wrapTerm (remTerm (subi iotaV (splatI 1#32)) (constantI S_ 32 8192#32))
/-- The number of the column after, around the end. -/
def idxNext : IVec S8192 32 := wrapTerm (remTerm (addi iotaV (splatI 1#32)) (constantI S_ 32 8192#32))

/-- Two index vectors side by side: row `r` is the pair `(a r, b r)`. -/
def pairIdx (a b : IVec S8192 32) : IVec S8192x2 32 :=
  concatenate S8192x2 1 [⟨S8192x1, broadcastInDim S8192x1 ![0] bcast_S8192_S8192x1_0 a⟩, ⟨S8192x1, broadcastInDim S8192x1 ![0] bcast_S8192_S8192x1_0 b⟩]
    concatenates_S8192x1_S8192x1_S8192x2_d1

/-! ## The gathers, the rolls, a vector along every row -/

/-- The matrix's entries at the pairs of indices `(a r, b r)`. -/
def gatherW (W : FVec F S8192x8192 .f32) (a b : IVec S8192 32) : FVec F S8192 .f32 :=
  Host.gather gather_S8192x8192_S8192x2_S8192_n_01_n_n_01_1_11 W (pairIdx a b)

/-- The input rolled one column to the right along every row: the last column, then the first 8191. -/
def rollRight (x : FVec F S256x8192 .f32) : FVec F S256x8192 .f32 :=
  concatenate S256x8192 1 [⟨S256x1, extractStridedSlice S256x1 ![0, 8191] x slices_S256x8192_S256x1_0_8191⟩,
      ⟨S256x8191, extractStridedSlice S256x8191 ![0, 0] x slices_S256x8192_S256x8191_0_0⟩]
    concatenates_S256x1_S256x8191_S256x8192_d1
/-- The input rolled one column to the left along every row: the last 8191 columns, then the first. -/
def rollLeft (x : FVec F S256x8192 .f32) : FVec F S256x8192 .f32 :=
  concatenate S256x8192 1 [⟨S256x8191, extractStridedSlice S256x8191 ![0, 1] x slices_S256x8192_S256x8191_0_1⟩,
      ⟨S256x1, extractStridedSlice S256x1 ![0, 0] x slices_S256x8192_S256x1_0_0⟩]
    concatenates_S256x8191_S256x1_S256x8192_d1

/-- A length-8192 vector laid along every one of the 256 rows. -/
def alongRows (v : FVec F S8192 .f32) : FVec F S256x8192 .f32 :=
  broadcastInDim S256x8192 ![0, 1] bcast_S1x8192_S256x8192_0_1 (broadcastInDim S1x8192 ![1] bcast_S8192_S1x8192_1 v)

/-! ## The coefficients and the result -/

/-- The reference's shape facts, bundled as the specification's coefficient chain takes them. -/
theorem coefFacts : Cert.Spec.CoefFacts :=
  ⟨bcast_S_S8192, slices_S8192_S1_0, slices_S8192_S1_8191, shapeCasts_S1_S_, bcast_S_S1, scatter_S8192_S1_S__n_0_0_0_wf⟩

/-- The reference's result as one term of its arguments (at the ideal values): three products summed, each a rolled or
    unrolled input times a coefficient vector times a gathered diagonal, laid along the rows. -/
def refOut (x : FVec Ideal S256x8192 .f32) (W : FVec Ideal S8192x8192 .f32) (β : FVec Ideal S8192 .f32) : FVec Ideal S256x8192 .f32 :=
  addf
    (addf (mulf (rollRight x) (alongRows (mulf (Cert.Spec.cs coefFacts β) (gatherW W idxSelf idxPrev))))
          (mulf x (alongRows (mulf (Cert.Spec.cd coefFacts β) (gatherW W idxSelf idxSelf)))))
    (mulf (rollLeft x) (alongRows (mulf (Cert.Spec.cp coefFacts β) (gatherW W idxSelf idxNext))))

end Cert.ReferenceIdeal.Hand

end
-- ==== Proof.Ref.Value.lean ====
/-
  The contents of the reference's result buffer after its operations, from any contents of the buffers before them:
  the pure term `refOut` of the three arguments' contents; and the arguments' buffers are not written.

  Every operation of the line writes one buffer, its own, and no two operations write the same one. Reading the fold
  at a buffer therefore walks back to the one operation that defines it and reads that operation's function at its
  operands' buffers, themselves read the same way, down to the three arguments, which no operation defines. The
  composed term this gives at the result buffer is `refOut` of the arguments' contents, stage for stage: the index
  vectors (the remainder chains and the wraps of negative indices), the three gathers at pairs of them, the three
  coefficient vectors (each a power of `1 + β` with its two end entries overwritten), the two rolls, the three products
  laid along the rows, and their sum.
-/
import proofs.«178726_j37838661878516_1_alg».proof.Proof.Ref.Ops
import proofs.«178726_j37838661878516_1_alg».proof.Proof.Ref.Terms
import Idealize.ShloMosaic.Lib.StableHlo.Run

noncomputable section

namespace Cert.ReferenceIdeal.Hand

open Cert.ReferenceIdeal
open Idealize.ShloMosaic Idealize.ShloMosaic.TcCoe Idealize.SL.Sem Idealize.ShloMosaic.StableHlo

-- The gathers, the scatters, the concatenations and the machine remainder are compared as whole applications, operand
-- by operand: the equation never looks inside them (their bodies are searches over the operand's entries).
attribute [local irreducible] Host.gather Host.scatter concatenate Host.remsi in
set_option maxRecDepth 8192 in
set_option maxHeartbeats 4000000 in
/-- The result buffer after the operations: each operation's result read at its own buffer is its function of its
    operands' contents and at any other buffer what was there, which leaves one composed term over the arguments'
    contents; that term is `refOut` with its definitions unfolded (a transport along an equation of a type with itself
    is the identity, and a reshape of a one-entry vector to a scalar is the shape cast the coefficient chain spells). -/
theorem out_eq (V : Valuation τ sig (Elt Ideal)) :
    after (ops (F := Ideal)) V (main_v92 : DevRef τ sig)
      = refOut (V (main_arg0 : DevRef τ sig)) (V (main_arg1 : DevRef τ sig)) (V (main_arg2 : DevRef τ sig)) := by
  after_results_simp
  rfl

variable {F : FTy → Type} [FloatOps F]

set_option maxRecDepth 8192 in
set_option maxHeartbeats 1000000 in
/-- No operation writes an argument's buffer. -/
theorem arg0_eq (V : Valuation τ sig (Elt F)) : after (ops (F := F)) V (main_arg0 : DevRef τ sig) = V (main_arg0 : DevRef τ sig) := by
  after_results_simp
set_option maxRecDepth 8192 in
set_option maxHeartbeats 1000000 in
theorem arg1_eq (V : Valuation τ sig (Elt F)) : after (ops (F := F)) V (main_arg1 : DevRef τ sig) = V (main_arg1 : DevRef τ sig) := by
  after_results_simp
set_option maxRecDepth 8192 in
set_option maxHeartbeats 1000000 in
theorem arg2_eq (V : Valuation τ sig (Elt F)) : after (ops (F := F)) V (main_arg2 : DevRef τ sig) = V (main_arg2 : DevRef τ sig) := by
  after_results_simp

end Cert.ReferenceIdeal.Hand

end
-- ==== Proof.Ref.Pure.lean ====
/-
  The reference's result, read at an index on the extended reals: it is the specification's function of the three
  arguments. The index vectors hold, at column `r`, the words of `r`, of `r − 1` and of `r + 1` modulo 8192 (the remainder
  chain and the wrap of negative indices evaluated on words below 2¹³); a gather at a pair of in-range indices reads
  the matrix there; a roll built from two slices and a concatenation reads the neighbouring column around the end; a
  vector laid along the rows reads its entry at the column.
-/
import proofs.«178726_j37838661878516_1_alg».proof.Proof.Ref.Terms
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.Affine
import Idealize.ShloMosaic.PureOps.Ideal.Laws

noncomputable section

namespace Cert.ReferenceIdeal.Hand

open Cert.ReferenceIdeal
open Idealize.ShloMosaic Idealize.ShloMosaic.ValueIdx
open Cert.Spec (prevCol nextCol)

/-- The remainder by 8192 on one word: the machine remainder, moved up by 8192 where it is non-zero and negative. -/
private def remW (w : BitVec 32) : BitVec 32 :=
  Scalar.select
    (IntOp.andi (IntOp.cmpi .ne (IntOp.cmpi .slt (IntOp.remsi .host w 8192#32) 0#32) (IntOp.cmpi .slt (8192#32 : BitVec 32) 0#32))
      (IntOp.cmpi .ne (IntOp.remsi .host w 8192#32) 0#32))
    (IntOp.addi (IntOp.remsi .host w 8192#32) 8192#32) (IntOp.remsi .host w 8192#32)

/-- The wrap of a negative index on one word. -/
private def wrapW (w : BitVec 32) : BitVec 32 :=
  Scalar.select (IntOp.cmpi .slt w 0#32) (IntOp.addi w 8192#32) w

/-- The remainder term at an index is the word function of the entry there; -/
private theorem remTerm_apply (x : IVec S8192 32) (i : S8192.Idx) :
    remTerm x (constantI S_ 32 8192#32) i = remW (x i) := rfl
/-- so is the wrap; -/
private theorem wrapTerm_apply (x : IVec S8192 32) (i : S8192.Idx) : wrapTerm x i = wrapW (x i) := rfl
/-- and the column numbers read the column's word. -/
private theorem iotaV_apply (r : Fin 8192) : iotaV (ix1 r) = BitVec.ofNat 32 r.val := rfl

/-- A non-negative word is left alone by the wrap. -/
private theorem wrapW_of_lt {w : BitVec 32} (h : 2 * w.toNat < 2 ^ 32) : wrapW w = w := by
  unfold wrapW
  have hc : IntOp.cmpi .slt w 0#32 = 0#1 := eq_zero_of_ne_one (by
    rw [IntOp.cmpi_slt, BitVec.toInt_eq_toNat_of_lt h, show (0#32 : BitVec 32).toInt = 0 from by decide]
    omega)
  rw [hc, select_zero]

/-- Of a non-negative word the remainder is the remainder of its value, a non-negative word again. -/
private theorem remW_of_lt {w : BitVec 32} (h : 2 * w.toNat < 2 ^ 32) : remW w = BitVec.ofNat 32 (w.toNat % 8192) := by
  have hm : (IntOp.remsi .host w 8192#32) = BitVec.ofNat 32 (w.toNat % 8192) := by
    apply BitVec.eq_of_toNat_eq
    rw [show (8192#32 : BitVec 32) = BitVec.ofNat 32 8192 from rfl, IntOp.toNat_remsi .host h 8192 (by omega) (by omega), BitVec.toNat_ofNat]
    omega
  unfold remW
  rw [hm]
  generalize hk : w.toNat % 8192 = k
  have hk' : k < 8192 := by omega
  have hc : IntOp.cmpi .slt (BitVec.ofNat 32 k) 0#32 = 0#1 := eq_zero_of_ne_one (by
    rw [IntOp.cmpi_slt, BitVec.toInt_eq_toNat_of_lt (by rw [BitVec.toNat_ofNat]; omega), show (0#32 : BitVec 32).toInt = 0 from by decide]
    rw [BitVec.toNat_ofNat]; omega)
  rw [hc, show IntOp.cmpi .slt (8192#32 : BitVec 32) 0#32 = 0#1 from by decide,
    show IntOp.cmpi .ne (0#1 : BitVec 1) 0#1 = 0#1 from by decide,
    show ∀ c : BitVec 1, IntOp.andi 0#1 c = 0#1 from by decide, select_zero]

/-- Of the word −1 the machine remainder is −1, non-zero and negative: moved up, it is 8191. -/
private theorem remW_neg_one : remW (BitVec.ofNat 32 0 - 1#32) = 8191#32 := by decide

/-- A value below 2³¹ makes a non-negative word. -/
private theorem ofNat_toNat_lt {k : Nat} (hk : k < 2 ^ 31) : 2 * (BitVec.ofNat 32 k).toNat < 2 ^ 32 := by
  rw [BitVec.toNat_ofNat]; omega

/-- The word of `r − 1` modulo 8192, for `r` below 8192. -/
private theorem prevW (r : Nat) (hr : r < 8192) :
    wrapW (remW (BitVec.ofNat 32 r - 1#32)) = BitVec.ofNat 32 ((r + 8191) % 8192) := by
  rcases Nat.eq_zero_or_pos r with rfl | hpos
  · rw [remW_neg_one]; decide
  · have e : BitVec.ofNat 32 r - 1#32 = BitVec.ofNat 32 (r - 1) := by
      apply BitVec.eq_of_toNat_eq
      simp only [BitVec.toNat_sub, BitVec.toNat_ofNat]
      omega
    rw [e, remW_of_lt (ofNat_toNat_lt (by omega)), BitVec.toNat_ofNat, wrapW_of_lt (ofNat_toNat_lt (by omega))]
    congr 1; omega

/-- The word of `r + 1` modulo 8192, for `r` below 8192. -/
private theorem nextW (r : Nat) (hr : r < 8192) :
    wrapW (remW (BitVec.ofNat 32 r + 1#32)) = BitVec.ofNat 32 ((r + 1) % 8192) := by
  have e : BitVec.ofNat 32 r + 1#32 = BitVec.ofNat 32 (r + 1) := by
    apply BitVec.eq_of_toNat_eq
    simp only [BitVec.toNat_add, BitVec.toNat_ofNat]
    omega
  rw [e, remW_of_lt (ofNat_toNat_lt (by omega)), BitVec.toNat_ofNat, wrapW_of_lt (ofNat_toNat_lt (by omega))]
  congr 1; omega

/-- Column `r`'s own index word. -/
theorem idxSelf_apply (r : Fin 8192) : idxSelf (ix1 r) = BitVec.ofNat 32 r.val := by
  unfold idxSelf
  rw [wrapTerm_apply, iotaV_apply]
  exact wrapW_of_lt (ofNat_toNat_lt (by have := r.isLt; omega))
/-- The word of the column before `r`, around the end. -/
theorem idxPrev_apply (r : Fin 8192) : idxPrev (ix1 r) = BitVec.ofNat 32 (prevCol r).val := by
  unfold idxPrev
  rw [wrapTerm_apply, remTerm_apply]
  exact prevW r.val r.isLt
/-- The word of the column after `r`, around the end. -/
theorem idxNext_apply (r : Fin 8192) : idxNext (ix1 r) = BitVec.ofNat 32 (nextCol r).val := by
  unfold idxNext
  rw [wrapTerm_apply, remTerm_apply]
  exact nextW r.val r.isLt

/-- The pair of index vectors read at row `r`: its first word is `a`'s, -/
private theorem pairIdx_apply0 (a b : IVec S8192 32) (r : Fin 8192) : pairIdx a b (ix2 r (0 : Fin 2)) = a (ix1 r) := by
  unfold pairIdx
  refine (concatenate_pair_apply_left (t := S8192x2) (s₁ := S8192x1) (s₂ := S8192x1) (1 : Fin 2) _ _ _ (ix2 r (0 : Fin 2)) rfl
    (ix2 r (0 : Fin 1)) (by
      intro c
      match c with
      | ⟨0, _⟩ => rfl
      | ⟨1, _⟩ => rfl)).trans ?_
  exact broadcastInDim_apply (s := S8192) (t := S8192x1) ![0] _ a (ix2 r (0 : Fin 1)) (ix1 r) (by
    intro c
    match c with
    | ⟨0, _⟩ => exact (if_neg (by show ¬ ((8192 : ℕ) = 1); omega)).symm)
/-- and its second word is `b`'s. -/
private theorem pairIdx_apply1 (a b : IVec S8192 32) (r : Fin 8192) : pairIdx a b (ix2 r (1 : Fin 2)) = b (ix1 r) := by
  unfold pairIdx
  refine (concatenate_pair_apply_right (t := S8192x2) (s₁ := S8192x1) (s₂ := S8192x1) (1 : Fin 2) _ _ _ (ix2 r (1 : Fin 2)) rfl rfl
    (ix2 r (0 : Fin 1)) (by
      intro c hc
      match c with
      | ⟨0, _⟩ => rfl
      | ⟨1, _⟩ => exact absurd rfl hc) (by show 0 + 1 = 1; rfl)).trans ?_
  exact broadcastInDim_apply (s := S8192) (t := S8192x1) ![0] _ b (ix2 r (0 : Fin 1)) (ix1 r) (by
    intro c
    match c with
    | ⟨0, _⟩ => exact (if_neg (by show ¬ ((8192 : ℕ) = 1); omega)).symm)

/-- A word below 8192 read signed and clamped into `[0, 8191]` is itself. -/
private theorem clamp_word (p : Fin 8192) : min (BitVec.ofNat 32 p.val).toInt.toNat (8192 - 1) = p.val := by
  have hp := p.isLt
  have h1 : (BitVec.ofNat 32 p.val).toNat = p.val := by rw [BitVec.toNat_ofNat]; omega
  rw [BitVec.toInt_eq_toNat_of_lt (by omega), h1, Int.toNat_natCast]
  omega

/-- The gather's dimension numbers: both axes of the matrix collapsed and indexed by the pair. -/
private abbrev gd : GatherDims S8192x8192 S8192x2 S8192 := gather_S8192x8192_S8192x2_S8192_n_01_n_n_01_1_11

/-- The row the gather reads at result index `r`: the pair's first word, in range. -/
private theorem gd_start0 (idx : IVec S8192x2 32) (r p : Fin 8192) (h0 : idx (ix2 r (0 : Fin 2)) = BitVec.ofNat 32 p.val) :
    gd.start (ix1 r) idx (0 : Fin 2) = p.val := by
  unfold GatherDims.start
  rw [dif_pos (show (0 : Fin 2) ∈ gd.startIndexMap from by decide)]
  have hsi : gd.siIdx (ix1 r) ⟨List.idxOf (0 : Fin 2) gd.startIndexMap, List.idxOf_lt_length_iff.2 (by decide)⟩ = ix2 r (0 : Fin 2) := by
    funext b'; refine Fin.ext ?_
    match b' with
    | ⟨0, _⟩ => rfl
    | ⟨1, _⟩ => rfl
  rw [hsi, h0]
  exact clamp_word p
/-- The column it reads: the pair's second word, in range. -/
private theorem gd_start1 (idx : IVec S8192x2 32) (r q : Fin 8192) (h1 : idx (ix2 r (1 : Fin 2)) = BitVec.ofNat 32 q.val) :
    gd.start (ix1 r) idx (1 : Fin 2) = q.val := by
  unfold GatherDims.start
  rw [dif_pos (show (1 : Fin 2) ∈ gd.startIndexMap from by decide)]
  have hsi : gd.siIdx (ix1 r) ⟨List.idxOf (1 : Fin 2) gd.startIndexMap, List.idxOf_lt_length_iff.2 (by decide)⟩ = ix2 r (1 : Fin 2) := by
    funext b'; refine Fin.ext ?_
    match b' with
    | ⟨0, _⟩ => rfl
    | ⟨1, _⟩ => rfl
  rw [hsi, h1]
  exact clamp_word q

/-- The matrix index the gather reads at result index `r` is the pair of words there. -/
private theorem gd_operandIdx (idx : IVec S8192x2 32) (r p q : Fin 8192)
    (h0 : idx (ix2 r (0 : Fin 2)) = BitVec.ofNat 32 p.val) (h1 : idx (ix2 r (1 : Fin 2)) = BitVec.ofNat 32 q.val) :
    gd.operandIdx (ix1 r) idx = ix2 p q := by
  funext ax
  refine Fin.ext ?_
  have hb : gd.batchCoord (ix1 r) ax = 0 :=
    GatherDims.batchCoord_eq_zero gd _ _ (by show ax ∉ ([] : List (Fin 2)); exact List.not_mem_nil)
  have key : ∀ y : Fin 2, y ∈ ([0, 1] : List (Fin 2)) := by decide
  have ho : gd.offCoord (ix1 r) ax = 0 :=
    GatherDims.offCoord_eq_zero gd _ _ (fun h => ((GatherDims.mem_sKept gd ax).mp h).1 (key ax))
  show gd.start (ix1 r) idx ax + gd.batchCoord (ix1 r) ax + gd.offCoord (ix1 r) ax = (ix2 p q ax).val
  simp only [hb, ho, Nat.add_zero]
  clear hb ho
  match ax with
  | ⟨0, _⟩ => exact gd_start0 idx r p h0
  | ⟨1, _⟩ => exact gd_start1 idx r q h1

/-- A gather at a pair of index vectors whose words at `r` are the in-range row `p` and column `q` reads the matrix at
    `(p, q)`. -/
theorem gatherW_apply (W : FVec Ideal S8192x8192 .f32) (a b : IVec S8192 32) (r p q : Fin 8192)
    (ha : a (ix1 r) = BitVec.ofNat 32 p.val) (hb : b (ix1 r) = BitVec.ofNat 32 q.val) :
    gatherW W a b (ix1 r) = W (ix2 p q) := by
  unfold gatherW Host.gather
  exact congrArg W (gd_operandIdx (pairIdx a b) r p q ((pairIdx_apply0 a b r).trans ha) ((pairIdx_apply1 a b r).trans hb))

/-- The input rolled right reads the column before. -/
theorem rollRight_apply (x : FVec Ideal S256x8192 .f32) (b : Fin 256) (r : Fin 8192) :
    rollRight x (ix2 b r) = x (ix2 b (prevCol r)) := by
  unfold rollRight
  by_cases h : r.val = 0
  · refine (concatenate_pair_apply_left (t := S256x8192) (s₁ := S256x1) (s₂ := S256x8191) (1 : Fin 2) _ _ _ (ix2 b r) rfl
      (ix2 b (0 : Fin 1)) (by
        intro a
        match a with
        | ⟨0, _⟩ => rfl
        | ⟨1, _⟩ => show (0 : ℕ) = r.val; omega)).trans ?_
    exact slice2_axis1_apply 8191 x _ b (0 : Fin 1) (prevCol r) (by rw [Cert.Spec.prevCol_val]; show _ = 8191 + 0; omega)
  · refine (concatenate_pair_apply_right (t := S256x8192) (s₁ := S256x1) (s₂ := S256x8191) (1 : Fin 2) _ _ _ (ix2 b r) rfl rfl
      (ix2 b (⟨r.val - 1, by have := r.isLt; omega⟩ : Fin 8191)) (by
        intro a ha
        match a with
        | ⟨0, _⟩ => rfl
        | ⟨1, _⟩ => exact absurd rfl ha) (by show r.val - 1 + 1 = r.val; omega)).trans ?_
    exact slice2_axis1_apply 0 x _ b (⟨r.val - 1, by have := r.isLt; omega⟩ : Fin 8191) (prevCol r)
      (by rw [Cert.Spec.prevCol_val]; show _ = 0 + (r.val - 1); have := r.isLt; omega)
/-- The input rolled left reads the column after. -/
theorem rollLeft_apply (x : FVec Ideal S256x8192 .f32) (b : Fin 256) (r : Fin 8192) :
    rollLeft x (ix2 b r) = x (ix2 b (nextCol r)) := by
  unfold rollLeft
  by_cases h : r.val < 8191
  · refine (concatenate_pair_apply_left (t := S256x8192) (s₁ := S256x8191) (s₂ := S256x1) (1 : Fin 2) _ _ _ (ix2 b r) rfl
      (ix2 b (⟨r.val, h⟩ : Fin 8191)) (by
        intro a
        match a with
        | ⟨0, _⟩ => rfl
        | ⟨1, _⟩ => rfl)).trans ?_
    exact slice2_axis1_apply 1 x _ b (⟨r.val, h⟩ : Fin 8191) (nextCol r) (by rw [Cert.Spec.nextCol_val]; show _ = 1 + r.val; omega)
  · refine (concatenate_pair_apply_right (t := S256x8192) (s₁ := S256x8191) (s₂ := S256x1) (1 : Fin 2) _ _ _ (ix2 b r) rfl rfl
      (ix2 b (0 : Fin 1)) (by
        intro a ha
        match a with
        | ⟨0, _⟩ => rfl
        | ⟨1, _⟩ => exact absurd rfl ha) (by show 0 + 8191 = r.val; have := r.isLt; omega)).trans ?_
    exact slice2_axis1_apply 0 x _ b (0 : Fin 1) (nextCol r)
      (by rw [Cert.Spec.nextCol_val]; show _ = 0 + 0; have := r.isLt; omega)
/-- A vector laid along the rows reads its entry at the column. -/
theorem alongRows_apply (v : FVec Ideal S8192 .f32) (b : Fin 256) (r : Fin 8192) :
    alongRows v (ix2 b r) = v (ix1 r) := by
  unfold alongRows
  refine (broadcastInDim_apply (s := S1x8192) (t := S256x8192) ![0, 1] _ _ (ix2 b r) (ix2 (0 : Fin 1) r) (by
    intro a
    match a with
    | ⟨0, _⟩ => exact (if_pos rfl).symm
    | ⟨1, _⟩ => exact (if_neg (by show ¬ ((8192 : ℕ) = 1); omega)).symm)).trans ?_
  exact broadcastInDim_apply (s := S8192) (t := S1x8192) ![1] _ v (ix2 (0 : Fin 1) r) (ix1 r) (by
    intro a
    match a with
    | ⟨0, _⟩ => exact (if_neg (by show ¬ ((8192 : ℕ) = 1); omega)).symm)

/-- The reference's result is the specification's function of its arguments. -/
theorem refOut_eq (x : FVec Ideal S256x8192 .f32) (W : FVec Ideal S8192x8192 .f32) (β : FVec Ideal S8192 .f32) :
    refOut x W β = Cert.Spec.out coefFacts x W β := by
  funext i
  obtain ⟨b, r, rfl⟩ : ∃ b r, i = ix2 b r := ⟨i 0, i 1, eq_ix2 i⟩
  unfold refOut Cert.Spec.out
  rw [Cert.Spec.G_apply]
  simp only [addf_apply, mulf_apply, rollRight_apply, rollLeft_apply, alongRows_apply]
  rw [gatherW_apply W idxSelf idxPrev r r (prevCol r) (idxSelf_apply r) (idxPrev_apply r),
    gatherW_apply W idxSelf idxSelf r r r (idxSelf_apply r) (idxSelf_apply r),
    gatherW_apply W idxSelf idxNext r r (nextCol r) (idxSelf_apply r) (idxNext_apply r)]

end Cert.ReferenceIdeal.Hand

end
-- ==== Proof.lean ====
/-
  The certificate's claim: the three frames, the idealization's ledger (empty) and the equality of results.

  The kernel runs two regions. The first reads, for every block row of the 8192×8192 weight matrix, the block on the
  diagonal and its two neighbours, and keeps three diagonals of the matrix: the entries left of the main diagonal,
  the main diagonal, and the entries right of it, each closed around the corner. Host operations scale each diagonal,
  entry by entry, by a coefficient vector made of the powers of `1 + bias` with the first and last entries exchanged
  among the powers. The second region sums, for every entry of the input, the entry to its left, the entry itself and
  the entry to its right on its row (around the end), each times its scaled diagonal entry at that column.
  The reference computes the same three products from gathers of the matrix at computed index pairs and rolls of the
  input. On the extended reals both are the same sum of three products, term by term and in the same association: a
  masked row sum with one non-zero summand is that summand, and nothing else of arithmetic is used, so the
  precondition is not opened.
-/
import proofs.«178726_j37838661878516_1_alg».proof.Defs
import proofs.«178726_j37838661878516_1_alg».proof.Proof.Gen.Kernel
import proofs.«178726_j37838661878516_1_alg».proof.Proof.Gen.KernelIdeal
import proofs.«178726_j37838661878516_1_alg».proof.Proof.Gen.ReferenceIdeal
import proofs.«178726_j37838661878516_1_alg».proof.Proof.Gen.Pre_finite_inputs
import proofs.«178726_j37838661878516_1_alg».proof.Proof.K.Run
import proofs.«178726_j37838661878516_1_alg».proof.Proof.KI.Run
import proofs.«178726_j37838661878516_1_alg».proof.Proof.KI.Value
import proofs.«178726_j37838661878516_1_alg».proof.Proof.Ref.Run
import proofs.«178726_j37838661878516_1_alg».proof.Proof.Ref.Value
import proofs.«178726_j37838661878516_1_alg».proof.Proof.Ref.Pure
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.Hand.run (F := Bits) m ρ)

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Hand.run (F := Ideal) m ρ)

/-- The reference runs and leaves its arguments unchanged. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono
    (fun _ h c => ⟨(h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _)⟩)
    (Cert.ReferenceIdeal.Hand.run_main (F := Ideal) m ρ)

/-- Both idealized programs end with the specification's function of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out Cert.KernelIdeal.Hand.coefFacts
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.KernelIdeal.Hand.result_spec m c), (h c).2⟩)
      (Cert.KernelIdeal.Hand.run (F := Ideal) m ρ)
  · refine (θ_run (Cert.ReferenceIdeal.defs (F := Ideal)) _ _).mono (fun _ h c => ⟨?_,
        (h c Cert.ReferenceIdeal.main_arg0).trans (Cert.ReferenceIdeal.Hand.arg0_eq _),
        (h c Cert.ReferenceIdeal.main_arg1).trans (Cert.ReferenceIdeal.Hand.arg1_eq _),
        (h c Cert.ReferenceIdeal.main_arg2).trans (Cert.ReferenceIdeal.Hand.arg2_eq _)⟩)
      (Cert.ReferenceIdeal.Hand.run_main (F := Ideal) m' ρ')
    refine (h c Cert.ReferenceIdeal.main_v92).trans ((Cert.ReferenceIdeal.Hand.out_eq _).trans ((Cert.ReferenceIdeal.Hand.refOut_eq _ _ _).trans ?_))
    show Cert.Spec.out _ (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = _
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
